-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S256x512 : Shape := ⟨2, ![256, 512]⟩
abbrev S256 : Shape := ⟨1, ![256]⟩
abbrev S64x256 : Shape := ⟨2, ![64, 256]⟩
abbrev S512x256 : Shape := ⟨2, ![512, 256]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x256 .f32) (main_arg5 : FVec F S512 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S16x4096x512 .f32) (main_arg1 : FVec F S256x512 .f32) (main_arg2 : FVec F S256 .f32) (main_arg3 : FVec F S64x256 .f32) (main_arg4 : FVec F S512x256 .f32) (main_arg5 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_v13 main_v16
-- ==== Kernel.lean ====
abbrev S16x4096x512 : Shape := ⟨3, ![16, 4096, 512]⟩
abbrev S256x512 : Shape := ⟨2, ![256, 512]⟩
abbrev S256 : Shape := ⟨1, ![256]⟩
abbrev S64x256 : Shape := ⟨2, ![64, 256]⟩
abbrev S512x256 : Shape := ⟨2, ![512, 256]⟩
abbrev S512 : Shape := ⟨1, ![512]⟩
abbrev S65536x512 : Shape := ⟨2, ![65536, 512]⟩
abbrev S1x256 : Shape := ⟨2, ![1, 256]⟩
abbrev S256x64 : Shape := ⟨2, ![256, 64]⟩
abbrev S1x512 : Shape := ⟨2, ![1, 512]⟩
abbrev S65536x64 : Shape := ⟨2, ![65536, 64]⟩
abbrev S65536x256 : Shape := ⟨2, ![65536, 256]⟩
abbrev S2048x512 : Shape := ⟨2, ![2048, 512]⟩
abbrev S2048x64 : Shape := ⟨2, ![2048, 64]⟩
abbrev S2048x256 : Shape := ⟨2, ![2048, 256]⟩
abbrev S2048 : Shape := ⟨1, ![2048]⟩
abbrev S2048x1 : Shape := ⟨2, ![2048, 1]⟩
abbrev S16x4096x64 : Shape := ⟨3, ![16, 4096, 64]⟩
abbrev S16x4096x256 : Shape := ⟨3, ![16, 4096, 256]⟩

abbrev nBuf : Space → Nat
  | .hbm => 18
  | .vmem => 14
  | .smem => 0
  | _ => 0

abbrev bufTy : (tb : Table) → Fin (tcTables nBuf tb) → BufTy
  | .hbm, ⟨0, _⟩ => ⟨S16x4096x512, .f32⟩
  | .hbm, ⟨1, _⟩ => ⟨S256x512, .f32⟩
  | .hbm, ⟨2, _⟩ => ⟨S256, .f32⟩
  | .hbm, ⟨3, _⟩ => ⟨S64x256, .f32⟩
  | .hbm, ⟨4, _⟩ => ⟨S512x256, .f32⟩
  | .hbm, ⟨5, _⟩ => ⟨S512, .f32⟩
  | .hbm, ⟨6, _⟩ => ⟨S65536x512, .f32⟩
  | .hbm, ⟨7, _⟩ => ⟨S512x256, .f32⟩
  | .hbm, ⟨8, _⟩ => ⟨S1x256, .f32⟩
  | .hbm, ⟨9, _⟩ => ⟨S256x64, .f32⟩
  | .hbm, ⟨10, _⟩ => ⟨S256x512, .f32⟩
  | .hbm, ⟨11, _⟩ => ⟨S1x512, .f32⟩
  | .hbm, ⟨12, _⟩ => ⟨S65536x512, .f32⟩
  | .hbm, ⟨13, _⟩ => ⟨S65536x64, .f32⟩
  | .hbm, ⟨14, _⟩ => ⟨S65536x256, .f32⟩
  | .hbm, ⟨15, _⟩ => ⟨S16x4096x512, .f32⟩
  | .hbm, ⟨16, _⟩ => ⟨S16x4096x64, .f32⟩
  | .hbm, ⟨17, _⟩ => ⟨S16x4096x256, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S1x256, .f32⟩
  | .local _ .vmem, ⟨4, _⟩ => ⟨S64x256, .f32⟩
  | .local _ .vmem, ⟨5, _⟩ => ⟨S256x64, .f32⟩
  | .local _ .vmem, ⟨6, _⟩ => ⟨S256x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S2048x64, .f32⟩
  | .local _ .vmem, ⟨11, _⟩ => ⟨S2048x64, .f32⟩
  | .local _ .vmem, ⟨12, _⟩ => ⟨S2048x256, .f32⟩
  | .local _ .vmem, ⟨13, _⟩ => ⟨S2048x256, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16x4096x512_S65536x512 : S16x4096x512.ShapeCasts S65536x512
  transposes_S256x512_S512x256_1_0 : S256x512.Transposes [1, 0] S512x256
  shapeCasts_S256_S1x256 : S256.ShapeCasts S1x256
  transposes_S64x256_S256x64_1_0 : S64x256.Transposes [1, 0] S256x64
  transposes_S512x256_S256x512_1_0 : S512x256.Transposes [1, 0] S256x512
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S64x256_S64x256_0_0 : ∀ a, (![0, 0] : Fin 2 → Nat) a + S64x256.size a ≤ S64x256.size a
  h_S64x256 : 0 < S64x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  broadcasts_S1x256_S2048x256 : S1x256.Broadcasts S2048x256
  reduces_S2048x64_S2048 : S2048x64.Reduces [1] S2048
  shapeCasts_S2048_S2048x1 : S2048.ShapeCasts S2048x1
  broadcasts_S2048x1_S2048x64 : S2048x1.Broadcasts S2048x64
  broadcasts_S1x512_S2048x512 : S1x512.Broadcasts S2048x512
  inb_S2048x64_S2048x64_0_0 : ∀ a, (![0, 0] : Fin 2 → Nat) a + S2048x64.size a ≤ S2048x64.size a
  h_S2048x64 : 0 < S2048x64.numel
  inb_S2048x256_S2048x256_0_0 : ∀ a, (![0, 0] : Fin 2 → Nat) a + S2048x256.size a ≤ S2048x256.size a
  h_S2048x256 : 0 < S2048x256.numel
  shapeCasts_S65536x512_S16x4096x512 : S65536x512.ShapeCasts S16x4096x512
  shapeCasts_S65536x64_S16x4096x64 : S65536x64.ShapeCasts S16x4096x64
  shapeCasts_S65536x256_S16x4096x256 : S65536x256.ShapeCasts S16x4096x256
  dot_S2048x512_S512x256_S2048x256_1_0_0_1_n_n_wf : DotDims.WF S2048x512 S512x256 S2048x256 [1] [0] [0] [1] [] []
  dot_S2048x256_S256x64_S2048x64_1_0_0_1_n_n_wf : DotDims.WF S2048x256 S256x64 S2048x64 [1] [0] [0] [1] [] []
  dot_S2048x64_S64x256_S2048x256_1_0_0_1_n_n_wf : DotDims.WF S2048x64 S64x256 S2048x256 [1] [0] [0] [1] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S65536x512.size a
  hwx0_7 : ∀ i : grid0.Coords, EltTy.bits .f32 = 32 ∨ (Rect.block (s := S65536x512) S2048x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x64.size a ≤ S65536x64.size a
  hwx0_8 : ∀ i : grid0.Coords, EltTy.bits .f32 = 32 ∨ (Rect.block (s := S65536x64) S2048x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S65536x256.size a
  hwx0_9 : ∀ i : grid0.Coords, EltTy.bits .f32 = 32 ∨ (Rect.block (s := S65536x256) S2048x256.size (cc0_transform_9 i) (hinb0_9 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S2048x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S2048x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S256x512 : Shape := ⟨2, ![256, 512]⟩
abbrev S256 : Shape := ⟨1, ![256]⟩
abbrev S64x256 : Shape := ⟨2, ![64, 256]⟩
abbrev S512x256 : Shape := ⟨2, ![512, 256]⟩
abbrev S512 : Shape := ⟨1, ![512]⟩
abbrev S16x4096x256 : Shape := ⟨3, ![16, 4096, 256]⟩
abbrev S1x1x256 : Shape := ⟨3, ![1, 1, 256]⟩
abbrev S_ : Shape := ⟨0, ![]⟩
abbrev S16x4096x64 : Shape := ⟨3, ![16, 4096, 64]⟩
abbrev S16x4096 : Shape := ⟨2, ![16, 4096]⟩
abbrev S16x4096x1 : Shape := ⟨3, ![16, 4096, 1]⟩
abbrev S1x1x512 : Shape := ⟨3, ![1, 1, 512]⟩

abbrev nBuf : Space → Nat
  | .hbm => 35
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S256x512, .f32⟩
  | .hbm, ⟨2, _⟩ => ⟨S256, .f32⟩
  | .hbm, ⟨3, _⟩ => ⟨S64x256, .f32⟩
  | .hbm, ⟨4, _⟩ => ⟨S512x256, .f32⟩
  | .hbm, ⟨5, _⟩ => ⟨S512, .f32⟩
  | .hbm, ⟨6, _⟩ => ⟨S16x4096x256, .f32⟩
  | .hbm, ⟨7, _⟩ => ⟨S1x1x256, .f32⟩
  | .hbm, ⟨8, _⟩ => ⟨S16x4096x256, .f32⟩
  | .hbm, ⟨9, _⟩ => ⟨S16x4096x256, .f32⟩
  | .hbm, ⟨10, _⟩ => ⟨S16x4096x256, .f32⟩
  | .hbm, ⟨11, _⟩ => ⟨S_, .f32⟩
  | .hbm, ⟨12, _⟩ => ⟨S_, .f32⟩
  | .hbm, ⟨13, _⟩ => ⟨S16x4096x64, .f32⟩
  | .hbm, ⟨14, _⟩ => ⟨S16x4096x64, .f32⟩
  | .hbm, ⟨15, _⟩ => ⟨S16x4096x64, .f32⟩
  | .hbm, ⟨16, _⟩ => ⟨S_, .f32⟩
  | .hbm, ⟨17, _⟩ => ⟨S16x4096, .f32⟩
  | .hbm, ⟨18, _⟩ => ⟨S_, .f32⟩
  | .hbm, ⟨19, _⟩ => ⟨S16x4096, .f32⟩
  | .hbm, ⟨20, _⟩ => ⟨S16x4096, .f32⟩
  | .hbm, ⟨21, _⟩ => ⟨S16x4096x1, .f32⟩
  | .hbm, ⟨22, _⟩ => ⟨S16x4096x64, .f32⟩
  | .hbm, ⟨23, _⟩ => ⟨S16x4096x64, .f32⟩
  | .hbm, ⟨24, _⟩ => ⟨S16x4096x64, .f32⟩
  | .hbm, ⟨25, _⟩ => ⟨S_, .f32⟩
  | .hbm, ⟨26, _⟩ => ⟨S16x4096, .f32⟩
  | .hbm, ⟨27, _⟩ => ⟨S16x4096x1, .f32⟩
  | .hbm, ⟨28, _⟩ => ⟨S16x4096x64, .f32⟩
  | .hbm, ⟨29, _⟩ => ⟨S16x4096x64, .f32⟩
  | .hbm, ⟨30, _⟩ => ⟨S16x4096x256, .f32⟩
  | .hbm, ⟨31, _⟩ => ⟨S16x4096x512, .f32⟩
  | .hbm, ⟨32, _⟩ => ⟨S1x1x512, .f32⟩
  | .hbm, ⟨33, _⟩ => ⟨S16x4096x512, .f32⟩
  | .hbm, ⟨34, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  bcast_S_S16x4096x64 : S_.BroadcastsInDim S16x4096x64 (![] : Fin 0 → Fin S16x4096x64.rank)
  reducesTo_S16x4096x64_S16x4096_d2 : S16x4096x64.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x64_0_1_2 : S16x4096x1.BroadcastsInDim S16x4096x64 (![0, 1, 2] : Fin 3 → Fin S16x4096x64.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  dot_S16x4096x512_S256x512_S16x4096x256_2_1_01_0_n_n_wf : DotDims.WF S16x4096x512 S256x512 S16x4096x256 [2] [1] [0, 1] [0] [] []
  dot_S16x4096x256_S64x256_S16x4096x64_2_1_01_0_n_n_wf : DotDims.WF S16x4096x256 S64x256 S16x4096x64 [2] [1] [0, 1] [0] [] []
  dot_S16x4096x64_S64x256_S16x4096x256_2_0_01_1_n_n_wf : DotDims.WF S16x4096x64 S64x256 S16x4096x256 [2] [0] [0, 1] [1] [] []
  dot_S16x4096x256_S512x256_S16x4096x512_2_1_01_0_n_n_wf : DotDims.WF S16x4096x256 S512x256 S16x4096x512 [2] [1] [0, 1] [0] [] []

variable [Facts₀]

def dot_S16x4096x512_S256x512_S16x4096x256_2_1_01_0_n_n : DotDims S16x4096x512 S256x512 S16x4096x256 where
  lhsContracting := [2]
  rhsContracting := [1]
  lhsNonContracting := [0, 1]
  rhsNonContracting := [0]
  lhsBatch := []
  rhsBatch := []
  wf := dot_S16x4096x512_S256x512_S16x4096x256_2_1_01_0_n_n_wf
def dot_S16x4096x256_S64x256_S16x4096x64_2_1_01_0_n_n : DotDims S16x4096x256 S64x256 S16x4096x64 where
  lhsContracting := [2]
  rhsContracting := [1]
  lhsNonContracting := [0, 1]
  rhsNonContracting := [0]
  lhsBatch := []
  rhsBatch := []
  wf := dot_S16x4096x256_S64x256_S16x4096x64_2_1_01_0_n_n_wf
def dot_S16x4096x64_S64x256_S16x4096x256_2_0_01_1_n_n : DotDims S16x4096x64 S64x256 S16x4096x256 where
  lhsContracting := [2]
  rhsContracting := [0]
  lhsNonContracting := [0, 1]
  rhsNonContracting := [1]
  lhsBatch := []
  rhsBatch := []
  wf := dot_S16x4096x64_S64x256_S16x4096x256_2_0_01_1_n_n_wf
def dot_S16x4096x256_S512x256_S16x4096x512_2_1_01_0_n_n : DotDims S16x4096x256 S512x256 S16x4096x512 where
  lhsContracting := [2]
  rhsContracting := [1]
  lhsNonContracting := [0, 1]
  rhsNonContracting := [0]
  lhsBatch := []
  rhsBatch := []
  wf := dot_S16x4096x256_S512x256_S16x4096x512_2_1_01_0_n_n_wf

class Facts : Prop extends Facts₀ where

variable [Facts]
-- ==== Proof.Spec.lean ====
/-
  The mathematics of one row, with no program in sight.

  A row `x : Fin 512 → EReal` of the sequence is encoded to 256 slots,
  `e k = tanh (∑ d, x d · W k d + b k)`; compared with the 64 memory rows,
  `l j = (∑ k, e k · M j k) / 16`; the comparison is normalised by a softmax,
  `a j = exp (l j − max l) / ∑ j', exp (l j' − max l)`; the memory is read with those weights,
  `r k = ∑ j, a j · M j k`; and the read is decoded, `y d = ∑ k, r k · D d k + c d`.
  Every operation is the exact one on the extended reals; the constant sixteen and the starting value
  of the maximum stay the bit patterns both programs spell.
-/
import Idealize.ShloMosaic.PureOps.Ideal
import Idealize.ShloMosaic.PureOps.Ideal.Laws

noncomputable section

namespace Cert.Spec

open Idealize.ShloMosaic

/-- The pattern `0x41800000` denotes sixteen. -/
theorem ofBits_sixteen : Ideal.ofBits .f32 0x41800000#32 = ((16 : ℝ) : EReal) := by
  simp [Ideal.ofBits, Ideal.ieee, -EReal.coe_mul]; norm_num

/-- The pattern `0x43800000` denotes two hundred and fifty-six. -/
theorem ofBits_256 : Ideal.ofBits .f32 0x43800000#32 = ((256 : ℝ) : EReal) := by
  simp [Ideal.ofBits, Ideal.ieee, -EReal.coe_mul]; norm_num

/-- The square root of 256 is 16: the reference's computed scale is the kernel's literal one. -/
theorem sqrt_256 : Ideal.sqrt (Ideal.ofBits .f32 0x43800000#32) = Ideal.ofBits .f32 0x41800000#32 := by
  rw [ofBits_256, ofBits_sixteen, Ideal.sqrt_coe, if_neg (by norm_num)]
  congr 1
  rw [show (256 : ℝ) = 16 ^ 2 by norm_num]
  exact Real.sqrt_sq (by norm_num)

/-- A row's encoding at slot `k`. -/
def encRow (x : Fin 512 → EReal) (W : Fin 256 → Fin 512 → EReal) (b : Fin 256 → EReal) (k : Fin 256) : EReal :=
  Ideal.tanh ((∑ d : Fin 512, x d * W k d) + b k)

/-- The scaled comparison of an encoded row with memory row `j`. -/
def logitRow (e : Fin 256 → EReal) (M : Fin 64 → Fin 256 → EReal) (j : Fin 64) : EReal :=
  Ideal.div (∑ k : Fin 256, e k * M j k) (Ideal.ofBits .f32 0x41800000#32)

/-- The largest of 64 values, started (twice, as both programs do) from the pattern of minus infinity. -/
def rowMax (l : Fin 64 → EReal) : EReal :=
  max (Ideal.ofBits .f32 0xFF800000#32) ((Finset.univ : Finset (Fin 64)).fold max (Ideal.ofBits .f32 0xFF800000#32) l)

/-- The exponential of a value's distance below the row's maximum. -/
def expRow (l : Fin 64 → EReal) (j : Fin 64) : EReal := Ideal.exp (l j - rowMax l)

/-- The softmax weight of memory row `j`. -/
def attnRow (l : Fin 64 → EReal) (j : Fin 64) : EReal := Ideal.div (expRow l j) (∑ j' : Fin 64, expRow l j')

/-- The memory read with weights `a`, at slot `k`. -/
def readRow (a : Fin 64 → EReal) (M : Fin 64 → Fin 256 → EReal) (k : Fin 256) : EReal := ∑ j : Fin 64, a j * M j k

/-- The read decoded, at feature `d`. -/
def decRow (r : Fin 256 → EReal) (D : Fin 512 → Fin 256 → EReal) (c : Fin 512 → EReal) (d : Fin 512) : EReal :=
  (∑ k : Fin 256, r k * D d k) + c d

/-- The three results for one row of the sequence, from the row and the five weight arrays. -/
def attnOf (x : Fin 512 → EReal) (W : Fin 256 → Fin 512 → EReal) (b : Fin 256 → EReal) (M : Fin 64 → Fin 256 → EReal) :
    Fin 64 → EReal :=
  attnRow (logitRow (encRow x W b) M)

def readOf (x : Fin 512 → EReal) (W : Fin 256 → Fin 512 → EReal) (b : Fin 256 → EReal) (M : Fin 64 → Fin 256 → EReal) :
    Fin 256 → EReal :=
  readRow (attnOf x W b M) M

def reconOf (x : Fin 512 → EReal) (W : Fin 256 → Fin 512 → EReal) (b : Fin 256 → EReal) (M : Fin 64 → Fin 256 → EReal)
    (D : Fin 512 → Fin 256 → EReal) (c : Fin 512 → EReal) : Fin 512 → EReal :=
  decRow (readOf x W b M) D c

end Cert.Spec

end
-- ==== Proof.Body.lean ====
/-
  The kernel's body at one row of its block.

  The body reads a block of 2048 rows of the flattened sequence and the five weight arrays (two of them
  transposed beforehand, the memory in both layouts), and writes three blocks. Everything it does is row by row:
  four matrix products (each entry a sum over the contracted axis), a bias added along rows, a tanh, a division
  by sixteen, a softmax along the 64 lanes (largest lane, exponential of the distance to it, sum, quotient).
  Here each intermediate array of the body is named, the printed payloads are shown to be those arrays, and each
  is read at an index `(p, ·)` as the row function of `Spec` applied to row `p` of the block.
-/
import proofs.«169983_j23175643529264_1_alg».proof.Proof.Gen.KernelIdeal.Skeleton
import proofs.«169983_j23175643529264_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Spec

/-! ## The four matrix products, read at an entry -/

/-! ### rows of the block times the transposed encoder weights -/

theorem lhs_enc_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_enc_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_enc_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_enc_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- Entry `(p, q)` of the product is the sum over `k` of row `p` of the left factor times column `q` of the right. -/
theorem matmul_enc {φ₁ φ₂ : FTy} (l : FVec Ideal S2048x512 φ₁) (r : FVec Ideal S512x256 φ₂) (p : Fin 2048) (q : Fin 256) :
    matmul dot_S2048x512_S512x256_S2048x256_1_0_0_1_n_n none l r (constant S2048x256 .f32 0x00000000#32) (ix2 p q)
      = ∑ k : Fin 512, l (ix2 p k) * r (ix2 k q) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k := funext fun a => Fin.ext (by
    match a with
    | ⟨0, _⟩ => exact lhs_enc_0 _ _
    | ⟨1, _⟩ => exact (lhs_enc_1 _ _).trans hk)
  have er : dot_S2048x512_S512x256_S2048x256_1_0_0_1_n_n.rhsIdx (ix2 p q) ((contrEquiv1 dot_S2048x512_S512x256_S2048x256_1_0_0_1_n_n 512 rfl rfl).symm k) = ix2 k q := funext fun a => Fin.ext (by
    match a with
    | ⟨0, _⟩ => exact (rhs_enc_0 _ _).trans hk
    | ⟨1, _⟩ => exact rhs_enc_1 _ _)
  rw [el, er]

/-! ### encoded rows times the transposed memory -/

theorem lhs_cmp_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhs_cmp_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhs_cmp_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhs_cmp_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- Entry `(p, q)` of the product is the sum over `k` of row `p` of the left factor times column `q` of the right. -/
theorem matmul_cmp {φ₁ φ₂ : FTy} (l : FVec Ideal S2048x256 φ₁) (r : FVec Ideal S256x64 φ₂) (p : Fin 2048) (q : Fin 64) :
    matmul dot_S2048x256_S256x64_S2048x64_1_0_0_1_n_n none l r (constant S2048x64 .f32 0x00000000#32) (ix2 p q)
      = ∑ k : Fin 256, l (ix2 p k) * r (ix2 k q) := by
  simp only [matmul]
  rw [Ideal.matmul_constant_zero_apply, ← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 p q) ((contrEquiv1 dot_S2048x256_S256x64_S2048x64_1_0_0_1_n_n 256 rfl rfl).symm k) = ix2 p k := funext fun a => Fin.ext (by
    match a with
    | ⟨0, _⟩ => exact lhs_cmp_0 _ _
    | ⟨1, _⟩ => exact (lhs_cmp_1 _ _).trans hk)
  have er : dot_S2048x256_S256x64_S2048x64_1_0_0_1_n_n.rhsIdx (ix2 p q) ((contrEquiv1 dot_S2048x256_S256x64_S2048x64_1_0_0_1_n_n 256 rfl rfl).symm k) = ix2 k q := funext fun a => Fin.ext (by
    match a with
    | ⟨0, _⟩ => exact (rhs_cmp_0 _ _).trans hk
    | ⟨1, _⟩ => exact rhs_cmp_1 _ _)
  rw [el, er]

/-! ### softmax weights times the memory -/

theorem lhs_rd_0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem lhs_rd_1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
theorem rhs_rd_0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
theorem rhs_rd_1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

/-- Entry `(p, q)` of the product is the sum over `k` of row `p` of the left factor times column `q` of the right. -/
theorem matmul_rd {φ₁ φ₂ : FTy} (l : FVec Ideal S2048x64 φ₁) (r : FVec Ideal S64x256 φ₂) (p : Fin 2048) (q : Fin 256) :
    matmul dot_S2048x64_S64x256_S2048x256_1_0_0_1_n_n none l r (constant S2048x256 .f32 0x00000000#32) (ix2 p q)
      = ∑ k : Fin 64, l (ix2 p k) * r (ix2 k q) := by
  simp only [matmul]
  rw [Ideal.matmul_constant_zero_apply, ← Equiv.sum_comp (contrEquiv1 dot_S2048x64_S64x256_S2048x256_1_0_0_1_n_n 64 rfl rfl).symm]
  refine Finset.sum_congr rfl fun k _ => ?_
  have hk := contrEquiv1_symm_val dot_S2048x64_S64x256_S2048x256_1_0_0_1_n_n 64 rfl rfl k
  have el : dot_S2048x64_S64x256_S2048x256_1_0_0_1_n_n.lhsIdx (ix2 p q) ((contrEquiv1 dot_S2048x64_S64x256_S2048x256_1_0_0_1_n_n 64 rfl rfl).symm k) = ix2 p k := funext fun a => Fin.ext (by
    match a with
    | ⟨0, _⟩ => exact lhs_rd_0 _ _
    | ⟨1, _⟩ => exact (lhs_rd_1 _ _).trans hk)
  have er : dot_S2048x64_S64x256_S2048x256_1_0_0_1_n_n.rhsIdx (ix2 p q) ((contrEquiv1 dot_S2048x64_S64x256_S2048x256_1_0_0_1_n_n 64 rfl rfl).symm k) = ix2 k q := funext fun a => Fin.ext (by
    match a with
    | ⟨0, _⟩ => exact (rhs_rd_0 _ _).trans hk
    | ⟨1, _⟩ => exact rhs_rd_1 _ _)
  rw [el, er]

/-! ### memory reads times the transposed decoder weights -/

theorem lhs_dec_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_dec_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_dec_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_dec_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- Entry `(p, q)` of the product is the sum over `k` of row `p` of the left factor times column `q` of the right. -/
theorem matmul_dec {φ₁ φ₂ : FTy} (l : FVec Ideal S2048x256 φ₁) (r : FVec Ideal S256x512 φ₂) (p : Fin 2048) (q : Fin 512) :
    matmul dot_S2048x256_S256x512_S2048x512_1_0_0_1_n_n none l r (constant S2048x512 .f32 0x00000000#32) (ix2 p q)
      = ∑ k : Fin 256, l (ix2 p k) * r (ix2 k q) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 p q) ((contrEquiv1 dot_S2048x256_S256x512_S2048x512_1_0_0_1_n_n 256 rfl rfl).symm k) = ix2 p k := funext fun a => Fin.ext (by
    match a with
    | ⟨0, _⟩ => exact lhs_dec_0 _ _
    | ⟨1, _⟩ => exact (lhs_dec_1 _ _).trans hk)
  have er : dot_S2048x256_S256x512_S2048x512_1_0_0_1_n_n.rhsIdx (ix2 p q) ((contrEquiv1 dot_S2048x256_S256x512_S2048x512_1_0_0_1_n_n 256 rfl rfl).symm k) = ix2 k q := funext fun a => Fin.ext (by
    match a with
    | ⟨0, _⟩ => exact (rhs_dec_0 _ _).trans hk
    | ⟨1, _⟩ => exact rhs_dec_1 _ _)
  rw [el, er]

/-! ## Reductions along the 64 lanes, and the column they are broadcast from -/

/-- The largest lane of row `p`, folded from the starting pattern. -/
theorem lanes_max (v : FVec Ideal S2048x64 .f32) (hφ : FKind.Formats .f32)
    (hacc : (0xFF800000#32 : BitVec 32) = FKind.maximumf.neutral .f32 hφ) (p : Fin 2048) :
    multiReduction .maximumf [1] S2048 v 0xFF800000#32 reduces_S2048x64_S2048 hφ hacc (ix1 p)
      = (Finset.univ : Finset (Fin 64)).fold max (Ideal.ofBits .f32 0xFF800000#32) (fun j => v (ix2 p j)) := by
  refine (Ideal.multiReduction_maximumf_single v 0xFF800000#32 reduces_S2048x64_S2048 hφ hacc (ix1 p)).trans ?_
  show (Finset.univ : Finset (Fin 64)).fold max (Ideal.ofBits .f32 0xFF800000#32) (v ∘ reduces_S2048x64_S2048.lift (ix1 p)) = _
  refine congrArg (fun f => (Finset.univ : Finset (Fin 64)).fold max (Ideal.ofBits .f32 0xFF800000#32) f) ?_
  funext j
  exact congrArg v (funext fun a => Fin.ext (by match a with | ⟨0, _⟩ => rfl | ⟨1, _⟩ => rfl))

/-- The sum of the lanes of row `p`. -/
theorem lanes_sum (v : FVec Ideal S2048x64 .f32) (hφ : FKind.Formats .f32)
    (hacc : (0x00000000#32 : BitVec 32) = FKind.add.neutral .f32 hφ) (p : Fin 2048) :
    multiReduction .add [1] S2048 v 0x00000000#32 reduces_S2048x64_S2048 hφ hacc (ix1 p)
      = ∑ j : Fin 64, v (ix2 p j) := by
  refine (Ideal.multiReduction_add_single v 0x00000000#32 reduces_S2048x64_S2048 hφ hacc (ix1 p)).trans ?_
  show ∑ j : Fin 64, v (reduces_S2048x64_S2048.lift (ix1 p) j) = _
  exact Finset.sum_congr rfl fun j _ =>
    congrArg v (funext fun a => Fin.ext (by match a with | ⟨0, _⟩ => rfl | ⟨1, _⟩ => rfl))

/-- A vector of 2048 values stood up as a column reads, at `(p, 0)`, its value at `p`. -/
theorem column_at {α : Type} (v : S2048.Idx → α) (p : Fin 2048) (u : Fin 1) :
    shapeCast S2048x1 v shapeCasts_S2048_S2048x1 (ix2 p u) = v (ix1 p) :=
  shapeCast_apply v shapeCasts_S2048_S2048x1 _ _ (by
    have hu : u.val = 0 := by omega
    rw [Shape.rowMajor_val_two, Shape.rowMajor_val_one]
    show p.val = p.val * 1 + u.val
    omega)

/-- A column broadcast along the 64 lanes reads, at `(p, j)`, the column at `p`. -/
theorem column_lanes_at {α : Type} (w : S2048x1.Idx → α) (p : Fin 2048) (j : Fin 64) :
    broadcastTo S2048x64 w broadcasts_S2048x1_S2048x64 (ix2 p j) = w (ix2 p (0 : Fin 1)) :=
  broadcastTo_apply w broadcasts_S2048x1_S2048x64 (ix2 p j) (ix2 p (0 : Fin 1)) fun ax => by
    match ax with
    | ⟨0, _⟩ => show p.val = if (2048 : Nat) = 1 then 0 else p.val; rw [if_neg (by decide)]
    | ⟨1, _⟩ => show 0 = if (1 : Nat) = 1 then 0 else j.val; rw [if_pos rfl]

/-! ## The body's arrays -/

section
variable (x0 : Vec Ideal S2048x512 .f32) (x1 : Vec Ideal S512x256 .f32) (x2 : Vec Ideal S1x256 .f32)
  (x3 : Vec Ideal S64x256 .f32) (x4 : Vec Ideal S256x64 .f32) (x5 : Vec Ideal S256x512 .f32) (x6 : Vec Ideal S1x512 .f32)

/-- The encoded block: tanh of the block times the transposed encoder weights plus the bias row. -/
def enc : FVec Ideal S2048x256 .f32 :=
  tanh (addf (matmul dot_S2048x512_S512x256_S2048x256_1_0_0_1_n_n none
      (truncf .bf16 (shapeCast S2048x512 x0 shapeCasts_S2048x512_S2048x512) bitsLt_bf16_f32)
      (truncf .bf16 (shapeCast S512x256 x1 shapeCasts_S512x256_S512x256) bitsLt_bf16_f32)
      (constant S2048x256 .f32 0x00000000#32))
    (broadcastTo S2048x256 (shapeCast S1x256 x2 shapeCasts_S1x256_S1x256) broadcasts_S1x256_S2048x256))

/-- The comparison with the memory, divided by sixteen. -/
def logit : FVec Ideal S2048x64 .f32 :=
  divf (matmul dot_S2048x256_S256x64_S2048x64_1_0_0_1_n_n none
      (truncf .bf16 (enc x0 x1 x2) bitsLt_bf16_f32)
      (truncf .bf16 (shapeCast S256x64 x4 shapeCasts_S256x64_S256x64) bitsLt_bf16_f32)
      (constant S2048x64 .f32 0x00000000#32))
    (broadcast S2048x64 (Scalar.ofBits .f32 0x41800000#32))

/-- Each row's largest lane, spread back over the lanes. -/
def lanesMax : FVec Ideal S2048x64 .f32 :=
  broadcastTo S2048x64
    (shapeCast S2048x1
      (maximumf (broadcast S2048 (Scalar.ofBits .f32 0xFF800000#32))
        (multiReduction .maximumf [1] S2048 (logit x0 x1 x2 x4) 0xFF800000#32 reduces_S2048x64_S2048 (.inl rfl) rfl))
      shapeCasts_S2048_S2048x1)
    broadcasts_S2048x1_S2048x64

/-- The exponential of each lane's distance below its row's largest. -/
def expo : FVec Ideal S2048x64 .f32 :=
  exp (subf (logit x0 x1 x2 x4) (lanesMax x0 x1 x2 x4))

/-- The softmax weights. -/
def attn : FVec Ideal S2048x64 .f32 :=
  divf (expo x0 x1 x2 x4)
    (broadcastTo S2048x64
      (shapeCast S2048x1
        (multiReduction .add [1] S2048 (expo x0 x1 x2 x4) 0x00000000#32 reduces_S2048x64_S2048 (.inl rfl) rfl)
        shapeCasts_S2048_S2048x1)
      broadcasts_S2048x1_S2048x64)

/-- The memory read with the softmax weights. -/
def rd : FVec Ideal S2048x256 .f32 :=
  matmul dot_S2048x64_S64x256_S2048x256_1_0_0_1_n_n none
    (truncf .bf16 (attn x0 x1 x2 x4) bitsLt_bf16_f32) (truncf .bf16 x3 bitsLt_bf16_f32)
    (constant S2048x256 .f32 0x00000000#32)

/-- The read decoded: times the transposed decoder weights, plus the bias row. -/
def recon : FVec Ideal S2048x512 .f32 :=
  addf (matmul dot_S2048x256_S256x512_S2048x512_1_0_0_1_n_n none
      (truncf .bf16 (rd x0 x1 x2 x3 x4) bitsLt_bf16_f32)
      (truncf .bf16 (shapeCast S256x512 x5 shapeCasts_S256x512_S256x512) bitsLt_bf16_f32)
      (constant S2048x512 .f32 0x00000000#32))
    (broadcastTo S2048x512 (shapeCast S1x512 x6 shapeCasts_S1x512_S1x512) broadcasts_S1x512_S2048x512)

/-- The printed payloads are these arrays. -/
theorem pay4_eq : k0_pay4 (F := Ideal) x0 x1 x2 x4 = attn x0 x1 x2 x4 := rfl
theorem pay5_eq : k0_pay5 (F := Ideal) x0 x1 x2 x3 x4 = rd x0 x1 x2 x3 x4 := rfl
theorem pay1_eq : k0_pay1 (F := Ideal) (k0_pay2 x5) (k0_pay3 x6) (k0_pay5 x0 x1 x2 x3 x4) = recon x0 x1 x2 x3 x4 x5 x6 := rfl

/-! ## Each array at a row -/

/-- Row `p` of the block, the weights as the row functions take them. -/
abbrev rowOf (p : Fin 2048) : Fin 512 → EReal := fun d => x0 (ix2 p d)
abbrev encW : Fin 256 → Fin 512 → EReal := fun k d => x1 (ix2 d k)
abbrev encB : Fin 256 → EReal := fun k => x2 (ix2 (0 : Fin 1) k)
abbrev memOf : Fin 64 → Fin 256 → EReal := fun j k => x3 (ix2 j k)
abbrev memT : Fin 64 → Fin 256 → EReal := fun j k => x4 (ix2 k j)
abbrev decW : Fin 512 → Fin 256 → EReal := fun d k => x5 (ix2 k d)
abbrev decB : Fin 512 → EReal := fun d => x6 (ix2 (0 : Fin 1) d)

theorem enc_at (p : Fin 2048) (k : Fin 256) :
    enc x0 x1 x2 (ix2 p k) = encRow (rowOf x0 p) (encW x1) (encB x2) k := by
  unfold enc encRow
  show Ideal.tanh (matmul (F := Ideal) dot_S2048x512_S512x256_S2048x256_1_0_0_1_n_n none _ _ (constant S2048x256 .f32 0x00000000#32) (ix2 p k)
      + broadcastTo S2048x256 (shapeCast S1x256 x2 shapeCasts_S1x256_S1x256) broadcasts_S1x256_S2048x256 (ix2 p k)) = _
  rw [matmul_enc, broadcastTo_1b_ab_apply, shapeCast_self, shapeCast_self, shapeCast_self]
  rfl

theorem logit_at (p : Fin 2048) (j : Fin 64) :
    logit x0 x1 x2 x4 (ix2 p j) = logitRow (encRow (rowOf x0 p) (encW x1) (encB x2)) (memT x4) j := by
  unfold logit logitRow
  show Ideal.div (matmul (F := Ideal) dot_S2048x256_S256x64_S2048x64_1_0_0_1_n_n none _ _ (constant S2048x64 .f32 0x00000000#32) (ix2 p j))
      (Ideal.ofBits .f32 0x41800000#32) = _
  rw [matmul_cmp, shapeCast_self]
  refine congrArg (fun s => Ideal.div s _) (Finset.sum_congr rfl fun k _ => ?_)
  show enc x0 x1 x2 (ix2 p k) * x4 (ix2 k j) = _
  rw [enc_at]

theorem lanesMax_at (p : Fin 2048) (j : Fin 64) :
    lanesMax x0 x1 x2 x4 (ix2 p j) = rowMax (logitRow (encRow (rowOf x0 p) (encW x1) (encB x2)) (memT x4)) := by
  unfold lanesMax rowMax
  rw [column_lanes_at, column_at]
  show max (Ideal.ofBits .f32 0xFF800000#32) (multiReduction .maximumf [1] S2048 (logit x0 x1 x2 x4) 0xFF800000#32 reduces_S2048x64_S2048 (.inl rfl) rfl (ix1 p)) = _
  refine congrArg (fun t => max (Ideal.ofBits .f32 0xFF800000#32) t) ?_
  refine (lanes_max (logit x0 x1 x2 x4) _ _ p).trans ?_
  refine congrArg (fun f => (Finset.univ : Finset (Fin 64)).fold max (Ideal.ofBits .f32 0xFF800000#32) f) ?_
  funext j'
  exact logit_at x0 x1 x2 x4 p j'

theorem expo_at (p : Fin 2048) (j : Fin 64) :
    expo x0 x1 x2 x4 (ix2 p j) = expRow (logitRow (encRow (rowOf x0 p) (encW x1) (encB x2)) (memT x4)) j := by
  unfold expo expRow
  show Ideal.exp (logit x0 x1 x2 x4 (ix2 p j) - lanesMax x0 x1 x2 x4 (ix2 p j)) = _
  rw [logit_at, lanesMax_at]

theorem attn_at (p : Fin 2048) (j : Fin 64) :
    attn x0 x1 x2 x4 (ix2 p j) = attnOf (rowOf x0 p) (encW x1) (encB x2) (memT x4) j := by
  unfold attn attnOf attnRow
  show Ideal.div (expo x0 x1 x2 x4 (ix2 p j)) (broadcastTo S2048x64 _ broadcasts_S2048x1_S2048x64 (ix2 p j)) = _
  rw [column_lanes_at, column_at, expo_at]
  refine congrArg (fun s => Ideal.div _ s) ?_
  exact (lanes_sum (expo x0 x1 x2 x4) _ _ p).trans (Finset.sum_congr rfl fun j' _ => expo_at x0 x1 x2 x4 p j')

theorem rd_at (p : Fin 2048) (k : Fin 256) :
    rd x0 x1 x2 x3 x4 (ix2 p k) = readRow (attnOf (rowOf x0 p) (encW x1) (encB x2) (memT x4)) (memOf x3) k := by
  unfold rd readRow
  rw [matmul_rd]
  refine Finset.sum_congr rfl fun j _ => ?_
  show attn x0 x1 x2 x4 (ix2 p j) * x3 (ix2 j k) = _
  rw [attn_at]

theorem recon_at (p : Fin 2048) (d : Fin 512) :
    recon x0 x1 x2 x3 x4 x5 x6 (ix2 p d)
      = decRow (readRow (attnOf (rowOf x0 p) (encW x1) (encB x2) (memT x4)) (memOf x3)) (decW x5) (decB x6) d := by
  unfold recon decRow
  show matmul (F := Ideal) dot_S2048x256_S256x512_S2048x512_1_0_0_1_n_n none _ _ (constant S2048x512 .f32 0x00000000#32) (ix2 p d)
      + broadcastTo S2048x512 (shapeCast S1x512 x6 shapeCasts_S1x512_S1x512) broadcasts_S1x512_S2048x512 (ix2 p d) = _
  rw [matmul_dec, broadcastTo_1b_ab_apply, shapeCast_self, shapeCast_self]
  refine congrArg (fun s => s + _) (Finset.sum_congr rfl fun k _ => ?_)
  show rd x0 x1 x2 x3 x4 (ix2 p k) * x5 (ix2 k d) = _
  rw [rd_at]

end

end Cert.KernelIdeal.Body

end
-- ==== Proof.Arrays.lean ====
/-
  From the blocks to the arrays, and through the host operations on either side of the launch.

  The launch runs the body at 32 points; point `t` reads rows `2048 t … 2048 t + 2047` of the flattened sequence and the
  whole of each weight array, and writes the same rows of the three results. So each result array ends as ONE function of
  the arrays the launch finds: at row `r` the row functions of `Spec` applied to row `r`. Before the launch the host
  flattens the sequence's two leading axes, transposes three weight matrices and stands the two biases up as rows; after
  it, it splits the rows of each result back into `(b, s)`.
-/
import proofs.«169983_j23175643529264_1_alg».proof.Proof.Gen.KernelIdeal.Frame
import proofs.«169983_j23175643529264_1_alg».proof.Proof.Body
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Body Cert.Spec

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided once over the 32 points: the sequence's window and the three results' move down
    the rows with the point, every weight's window stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## The arrays the launch finds, and each window's block at a point, at their literal types -/

abbrev arr0 (c : Dev nD) : Vec Ideal S65536x512 .f32 := V m c main_v0
abbrev arr1 (c : Dev nD) : Vec Ideal S512x256 .f32 := V m c main_v1
abbrev arr2 (c : Dev nD) : Vec Ideal S1x256 .f32 := V m c main_v2
abbrev arr3 (c : Dev nD) : Vec Ideal S64x256 .f32 := V m c main_arg3
abbrev arr4 (c : Dev nD) : Vec Ideal S256x64 .f32 := V m c main_v3
abbrev arr5 (c : Dev nD) : Vec Ideal S256x512 .f32 := V m c main_v4
abbrev arr6 (c : Dev nD) : Vec Ideal S1x512 .f32 := V m c main_v5

abbrev blk0 (c : Dev nD) (t : Fin cfg0.N) : Vec Ideal S2048x512 .f32 := iblk m c 0 t
abbrev blk1 (c : Dev nD) (t : Fin cfg0.N) : Vec Ideal S512x256 .f32 := iblk m c 1 t
abbrev blk2 (c : Dev nD) (t : Fin cfg0.N) : Vec Ideal S1x256 .f32 := iblk m c 2 t
abbrev blk3 (c : Dev nD) (t : Fin cfg0.N) : Vec Ideal S64x256 .f32 := iblk m c 3 t
abbrev blk4 (c : Dev nD) (t : Fin cfg0.N) : Vec Ideal S256x64 .f32 := iblk m c 4 t
abbrev blk5 (c : Dev nD) (t : Fin cfg0.N) : Vec Ideal S256x512 .f32 := iblk m c 5 t
abbrev blk6 (c : Dev nD) (t : Fin cfg0.N) : Vec Ideal S1x512 .f32 := iblk m c 6 t

/-- Row `p` of the sequence's block at point `t` is row `2048 t + p` of the flattened sequence. -/
theorem blk0_at (c : Dev nD) (t : Fin cfg0.N) (p : Fin 2048) (d : Fin 512) (r : Fin 65536) (hr : r.val = t.val * 2048 + p.val) :
    blk0 m c t (ix2 p d) = arr0 m c (ix2 r d) := by
  have e0 : win0_0.index t (0 : Fin 2) = t.val := (idx_facts t).1
  have e1 : win0_0.index t (1 : Fin 2) = 0 := (idx_facts t).2.1
  unfold blk0 arr0 iblk
  rw [View.read_apply]
  show V m c main_v0 _ = V m c main_v0 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 512 + 1 * d.val = d.val; rw [e1]; omega

/-! Each weight's block, at every point, is its whole array. -/

theorem blk1_eq (c : Dev nD) (t : Fin cfg0.N) : blk1 m c t = arr1 m c := by
  have e0 : win0_1.index t (0 : Fin 2) = 0 := (idx_facts t).2.2.1
  have e1 : win0_1.index t (1 : Fin 2) = 0 := (idx_facts t).2.2.2.1
  funext y
  unfold blk1 arr1 iblk
  rw [View.read_apply]
  show V m c main_v1 _ = V m c main_v1 y
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 256 + 1 * (y 1).val = (y 1).val; rw [e1]; omega

theorem blk2_eq (c : Dev nD) (t : Fin cfg0.N) : blk2 m c t = arr2 m c := by
  have e0 : win0_2.index t (0 : Fin 2) = 0 := (idx_facts t).2.2.2.2.1
  have e1 : win0_2.index t (1 : Fin 2) = 0 := (idx_facts t).2.2.2.2.2.1
  funext y
  unfold blk2 arr2 iblk
  rw [View.read_apply]
  show V m c main_v2 _ = V m c main_v2 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

theorem blk3_eq (c : Dev nD) (t : Fin cfg0.N) : blk3 m c t = arr3 m c := by
  have e0 : win0_3.index t (0 : Fin 2) = 0 := (idx_facts t).2.2.2.2.2.2.1
  have e1 : win0_3.index t (1 : Fin 2) = 0 := (idx_facts t).2.2.2.2.2.2.2.1
  funext y
  unfold blk3 arr3 iblk
  rw [View.read_apply]
  show V m c main_arg3 _ = V m c main_arg3 y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 256 + 1 * (y 1).val = (y 1).val; rw [e1]; omega

theorem blk4_eq (c : Dev nD) (t : Fin cfg0.N) : blk4 m c t = arr4 m c := by
  have e0 : win0_4.index t (0 : Fin 2) = 0 := (idx_facts t).2.2.2.2.2.2.2.2.1
  have e1 : win0_4.index t (1 : Fin 2) = 0 := (idx_facts t).2.2.2.2.2.2.2.2.2.1
  funext y
  unfold blk4 arr4 iblk
  rw [View.read_apply]
  show V m c main_v3 _ = V m c main_v3 y
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 64 + 1 * (y 1).val = (y 1).val; rw [e1]; omega

theorem blk5_eq (c : Dev nD) (t : Fin cfg0.N) : blk5 m c t = arr5 m c := by
  have e0 : win0_5.index t (0 : Fin 2) = 0 := (idx_facts t).2.2.2.2.2.2.2.2.2.2.1
  have e1 : win0_5.index t (1 : Fin 2) = 0 := (idx_facts t).2.2.2.2.2.2.2.2.2.2.2.1
  funext y
  unfold blk5 arr5 iblk
  rw [View.read_apply]
  show V m c main_v4 _ = V m c main_v4 y
  congr 1
  funext a
  apply Fin.ext
  match a with
  | ⟨0, _⟩ => show win0_5.index t (0 : Fin 2) * 256 + 1 * (y 0).val = (y 0).val; rw [e0]; omega
  | ⟨1, _⟩ => show win0_5.index t (1 : Fin 2) * 512 + 1 * (y 1).val = (y 1).val; rw [e1]; omega

theorem blk6_eq (c : Dev nD) (t : Fin cfg0.N) : blk6 m c t = arr6 m c := by
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  funext y
  unfold blk6 arr6 iblk
  rw [View.read_apply]
  show V m c main_v5 _ = V m c main_v5 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 512 + 1 * (y 1).val = (y 1).val; rw [e1]; omega

/-! ## Each result array as one function of the arrays the launch finds -/

/-- The softmax weights at row `i 0`, lane `i 1`. -/
def attnG (A0 : Vec Ideal S65536x512 .f32) (A1 : Vec Ideal S512x256 .f32) (A2 : Vec Ideal S1x256 .f32) (A4 : Vec Ideal S256x64 .f32) :
    Vec Ideal S65536x64 .f32 :=
  fun i => attnOf (fun d => A0 (ix2 (i 0) d)) (encW A1) (encB A2) (memT A4) (i 1)

/-- The memory read at row `i 0`, slot `i 1`. -/
def readG (A0 : Vec Ideal S65536x512 .f32) (A1 : Vec Ideal S512x256 .f32) (A2 : Vec Ideal S1x256 .f32) (A3 : Vec Ideal S64x256 .f32)
    (A4 : Vec Ideal S256x64 .f32) : Vec Ideal S65536x256 .f32 :=
  fun i => readRow (attnOf (fun d => A0 (ix2 (i 0) d)) (encW A1) (encB A2) (memT A4)) (memOf A3) (i 1)

/-- The reconstruction at row `i 0`, feature `i 1`. -/
def reconG (A0 : Vec Ideal S65536x512 .f32) (A1 : Vec Ideal S512x256 .f32) (A2 : Vec Ideal S1x256 .f32) (A3 : Vec Ideal S64x256 .f32)
    (A4 : Vec Ideal S256x64 .f32) (A5 : Vec Ideal S256x512 .f32) (A6 : Vec Ideal S1x512 .f32) : Vec Ideal S65536x512 .f32 :=
  fun i => decRow (readRow (attnOf (fun d => A0 (ix2 (i 0) d)) (encW A1) (encB A2) (memT A4)) (memOf A3)) (decW A5) (decB A6) (i 1)

/-! ## What each point writes back, the cover, and the arrays after the launch -/

/-! ### The softmax weights' window -/

theorem out8_emb0 (t : Fin cfg0.N) (p : Fin 2048) (q : Fin 64) :
    ((((cfg0.win 8).blk t).view.emb (ix2 p q)) 0).val = t.val * 2048 + p.val := by
  have e : win0_8.index t (0 : Fin 2) = t.val := (idx_facts t).2.2.2.2.2.2.2.2.2.2.2.2.2.2.2.2.1
  show win0_8.index t (0 : Fin 2) * 2048 + 1 * p.val = _
  rw [e]; omega

theorem out8_emb1 (t : Fin cfg0.N) (p : Fin 2048) (q : Fin 64) :
    ((((cfg0.win 8).blk t).view.emb (ix2 p q)) 1).val = q.val := by
  have e : win0_8.index t (1 : Fin 2) = 0 := (idx_facts t).2.2.2.2.2.2.2.2.2.2.2.2.2.2.2.2.2.1
  show win0_8.index t (1 : Fin 2) * 64 + 1 * q.val = _
  rw [e]; omega

/-- What point `t` writes back is its block of the whole-array function. -/
theorem flushed8_eq (c : Dev nD) (t : Fin cfg0.N) :
    (dats m 0 c).flushed 8 t = ((cfg0.win 8).blk t).view.read (Elt Ideal) (attnG (arr0 m c) (arr1 m c) (arr2 m c) (arr4 m c)) := by
  show (cfg0.win 8).cut (grid0.coords t) ((dats m 0 c).after 8 t) = _
  rw [after0_8]
  unfold out0_8
  rw [View.canon_unit_zero hz]
  simp only [View.ld_unit_zero (S := S2048x512) hz, View.ld_unit_zero (S := S512x256) hz, View.ld_unit_zero (S := S1x256) hz, View.ld_unit_zero (S := S256x64) hz]
  funext y
  obtain ⟨p, q, rfl⟩ : ∃ (p : Fin 2048) (q : Fin 64), y = ix2 p q := ⟨y 0, y 1, eq_ix2 y⟩
  rw [View.read_apply]
  show k0_pay4 (F := Ideal) (blk0 m c t) (blk1 m c t) (blk2 m c t) (blk4 m c t) (ix2 p q) = attnG (arr0 m c) (arr1 m c) (arr2 m c) (arr4 m c) (((cfg0.win 8).blk t).view.emb (ix2 p q))
  rw [pay4_eq, attn_at, blk1_eq, blk2_eq, blk4_eq]
  unfold attnG
  beta_reduce
  rw [show (((cfg0.win 8).blk t).view.emb (ix2 p q)) 1 = q from Fin.ext (out8_emb1 t p q)]
  refine congrArg (fun x => attnOf x (encW (arr1 m c)) (encB (arr2 m c)) (memT (arr4 m c)) q) ?_
  funext d
  exact blk0_at m c t p d _ (out8_emb0 t p q)

/-- An index of the array is in point `t`'s block iff each coordinate is in the block's range on its axis. -/
theorem mem_blk8 (t : Fin cfg0.N) (i : S65536x64.Idx) :
    i ∈ ((cfg0.win 8).blk t).view.set ↔ ∀ a : Fin 2, win0_8.index t a * S2048x64.size a ≤ (i a).val ∧ (i a).val < win0_8.index t a * S2048x64.size a + S2048x64.size a := by
  show i ∈ ((View.whole main_v6_1).slice (win0_8.rect t)).set ↔ _
  rw [View.set_slice_whole, Rect.mem_set_unit]
  exact Iff.rfl

/-- Row `r` lies in the block of point `r / 2048`. -/
theorem cover8 (i : S65536x64.Idx) : ∃ t : Fin cfg0.N, (cfg0.win 8).flush t = true ∧ i ∈ ((cfg0.win 8).blk t).view.set := by
  have hi0 : (i 0).val < 65536 := (i 0).isLt
  have hi1 : (i 1).val < 64 := (i 1).isLt
  have hN : cfg0.N = 32 := N_0
  have ht : (i 0).val / 2048 < cfg0.N := by rw [hN]; omega
  refine ⟨⟨(i 0).val / 2048, ht⟩, flush0_8 _, ?_⟩
  rw [mem_blk8]
  have e0 : win0_8.index ⟨(i 0).val / 2048, ht⟩ (0 : Fin 2) = (i 0).val / 2048 := (idx_facts ⟨(i 0).val / 2048, ht⟩).2.2.2.2.2.2.2.2.2.2.2.2.2.2.2.2.1
  have e1 : win0_8.index ⟨(i 0).val / 2048, ht⟩ (1 : Fin 2) = 0 := (idx_facts ⟨(i 0).val / 2048, ht⟩).2.2.2.2.2.2.2.2.2.2.2.2.2.2.2.2.2.1
  intro a
  match a with
  | ⟨0, _⟩ => show win0_8.index ⟨(i 0).val / 2048, ht⟩ (0 : Fin 2) * 2048 ≤ (i 0).val ∧ (i 0).val < win0_8.index ⟨(i 0).val / 2048, ht⟩ (0 : Fin 2) * 2048 + 2048; rw [e0]; omega
  | ⟨1, _⟩ => show win0_8.index ⟨(i 0).val / 2048, ht⟩ (1 : Fin 2) * 64 ≤ (i 1).val ∧ (i 1).val < win0_8.index ⟨(i 0).val / 2048, ht⟩ (1 : Fin 2) * 64 + 64; rw [e1]; omega

/-- The array after the launch. -/
theorem final8 (c : Dev nD) : (dats m 0 c).arrAt 8 cfg0.N = attnG (arr0 m c) (arr1 m c) (arr2 m c) (arr4 m c) :=
  (dats m 0 c).arrAt_eq_of_cover 8 (attnG (arr0 m c) (arr1 m c) (arr2 m c) (arr4 m c)) (fun t _ => flushed8_eq m c t) cover8

/-! ### The memory read's window -/

theorem out9_emb0 (t : Fin cfg0.N) (p : Fin 2048) (q : Fin 256) :
    ((((cfg0.win 9).blk t).view.emb (ix2 p q)) 0).val = t.val * 2048 + p.val := by
  have e : win0_9.index t (0 : Fin 2) = t.val := (idx_facts t).2.2.2.2.2.2.2.2.2.2.2.2.2.2.2.2.2.2.1
  show win0_9.index t (0 : Fin 2) * 2048 + 1 * p.val = _
  rw [e]; omega

theorem out9_emb1 (t : Fin cfg0.N) (p : Fin 2048) (q : Fin 256) :
    ((((cfg0.win 9).blk t).view.emb (ix2 p q)) 1).val = q.val := by
  have e : win0_9.index t (1 : Fin 2) = 0 := (idx_facts t).2.2.2.2.2.2.2.2.2.2.2.2.2.2.2.2.2.2.2
  show win0_9.index t (1 : Fin 2) * 256 + 1 * q.val = _
  rw [e]; omega

/-- What point `t` writes back is its block of the whole-array function. -/
theorem flushed9_eq (c : Dev nD) (t : Fin cfg0.N) :
    (dats m 0 c).flushed 9 t = ((cfg0.win 9).blk t).view.read (Elt Ideal) (readG (arr0 m c) (arr1 m c) (arr2 m c) (arr3 m c) (arr4 m c)) := by
  show (cfg0.win 9).cut (grid0.coords t) ((dats m 0 c).after 9 t) = _
  rw [after0_9]
  unfold out0_9
  rw [View.canon_unit_zero hz]
  simp only [View.ld_unit_zero (S := S2048x512) hz, View.ld_unit_zero (S := S512x256) hz, View.ld_unit_zero (S := S1x256) hz, View.ld_unit_zero (S := S64x256) hz, View.ld_unit_zero (S := S256x64) hz]
  funext y
  obtain ⟨p, q, rfl⟩ : ∃ (p : Fin 2048) (q : Fin 256), y = ix2 p q := ⟨y 0, y 1, eq_ix2 y⟩
  rw [View.read_apply]
  show k0_pay5 (F := Ideal) (blk0 m c t) (blk1 m c t) (blk2 m c t) (blk3 m c t) (blk4 m c t) (ix2 p q) = readG (arr0 m c) (arr1 m c) (arr2 m c) (arr3 m c) (arr4 m c) (((cfg0.win 9).blk t).view.emb (ix2 p q))
  rw [pay5_eq, rd_at, blk1_eq, blk2_eq, blk3_eq, blk4_eq]
  unfold readG
  beta_reduce
  rw [show (((cfg0.win 9).blk t).view.emb (ix2 p q)) 1 = q from Fin.ext (out9_emb1 t p q)]
  refine congrArg (fun x => readRow (attnOf x (encW (arr1 m c)) (encB (arr2 m c)) (memT (arr4 m c))) (memOf (arr3 m c)) q) ?_
  funext d
  exact blk0_at m c t p d _ (out9_emb0 t p q)

/-- An index of the array is in point `t`'s block iff each coordinate is in the block's range on its axis. -/
theorem mem_blk9 (t : Fin cfg0.N) (i : S65536x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v6_2).slice (win0_9.rect t)).set ↔ _
  rw [View.set_slice_whole, Rect.mem_set_unit]
  exact Iff.rfl

/-- Row `r` lies in the block of point `r / 2048`. -/
theorem cover9 (i : S65536x256.Idx) : ∃ t : Fin cfg0.N, (cfg0.win 9).flush t = true ∧ i ∈ ((cfg0.win 9).blk t).view.set := by
  have hi0 : (i 0).val < 65536 := (i 0).isLt
  have hi1 : (i 1).val < 256 := (i 1).isLt
  have hN : cfg0.N = 32 := N_0
  have ht : (i 0).val / 2048 < cfg0.N := by rw [hN]; omega
  refine ⟨⟨(i 0).val / 2048, ht⟩, flush0_9 _, ?_⟩
  rw [mem_blk9]
  have e0 : win0_9.index ⟨(i 0).val / 2048, ht⟩ (0 : Fin 2) = (i 0).val / 2048 := (idx_facts ⟨(i 0).val / 2048, ht⟩).2.2.2.2.2.2.2.2.2.2.2.2.2.2.2.2.2.2.1
  have e1 : win0_9.index ⟨(i 0).val / 2048, ht⟩ (1 : Fin 2) = 0 := (idx_facts ⟨(i 0).val / 2048, ht⟩).2.2.2.2.2.2.2.2.2.2.2.2.2.2.2.2.2.2.2
  intro a
  match a with
  | ⟨0, _⟩ => show win0_9.index ⟨(i 0).val / 2048, ht⟩ (0 : Fin 2) * 2048 ≤ (i 0).val ∧ (i 0).val < win0_9.index ⟨(i 0).val / 2048, ht⟩ (0 : Fin 2) * 2048 + 2048; rw [e0]; omega
  | ⟨1, _⟩ => show win0_9.index ⟨(i 0).val / 2048, ht⟩ (1 : Fin 2) * 256 ≤ (i 1).val ∧ (i 1).val < win0_9.index ⟨(i 0).val / 2048, ht⟩ (1 : Fin 2) * 256 + 256; rw [e1]; omega

/-- The array after the launch. -/
theorem final9 (c : Dev nD) : (dats m 0 c).arrAt 9 cfg0.N = readG (arr0 m c) (arr1 m c) (arr2 m c) (arr3 m c) (arr4 m c) :=
  (dats m 0 c).arrAt_eq_of_cover 9 (readG (arr0 m c) (arr1 m c) (arr2 m c) (arr3 m c) (arr4 m c)) (fun t _ => flushed9_eq m c t) cover9

/-! ### The reconstruction's window -/

theorem out7_emb0 (t : Fin cfg0.N) (p : Fin 2048) (q : Fin 512) :
    ((((cfg0.win 7).blk t).view.emb (ix2 p q)) 0).val = t.val * 2048 + p.val := by
  have e : win0_7.index t (0 : Fin 2) = t.val := (idx_facts t).2.2.2.2.2.2.2.2.2.2.2.2.2.2.1
  show win0_7.index t (0 : Fin 2) * 2048 + 1 * p.val = _
  rw [e]; omega

theorem out7_emb1 (t : Fin cfg0.N) (p : Fin 2048) (q : Fin 512) :
    ((((cfg0.win 7).blk t).view.emb (ix2 p q)) 1).val = q.val := by
  have e : win0_7.index t (1 : Fin 2) = 0 := (idx_facts t).2.2.2.2.2.2.2.2.2.2.2.2.2.2.2.1
  show win0_7.index t (1 : Fin 2) * 512 + 1 * q.val = _
  rw [e]; omega

/-- What point `t` writes back is its block of the whole-array function. -/
theorem flushed7_eq (c : Dev nD) (t : Fin cfg0.N) :
    (dats m 0 c).flushed 7 t = ((cfg0.win 7).blk t).view.read (Elt Ideal) (reconG (arr0 m c) (arr1 m c) (arr2 m c) (arr3 m c) (arr4 m c) (arr5 m c) (arr6 m c)) := by
  show (cfg0.win 7).cut (grid0.coords t) ((dats m 0 c).after 7 t) = _
  rw [after0_7]
  unfold out0_7
  rw [View.canon_unit_zero hz]
  simp only [View.ld_unit_zero (S := S2048x512) hz, View.ld_unit_zero (S := S512x256) hz, View.ld_unit_zero (S := S1x256) hz, View.ld_unit_zero (S := S64x256) hz, View.ld_unit_zero (S := S256x64) hz, View.ld_unit_zero (S := S256x512) hz, View.ld_unit_zero (S := S1x512) hz]
  funext y
  obtain ⟨p, q, rfl⟩ : ∃ (p : Fin 2048) (q : Fin 512), y = ix2 p q := ⟨y 0, y 1, eq_ix2 y⟩
  rw [View.read_apply]
  show k0_pay1 (F := Ideal) (k0_pay2 (blk5 m c t)) (k0_pay3 (blk6 m c t)) (k0_pay5 (blk0 m c t) (blk1 m c t) (blk2 m c t) (blk3 m c t) (blk4 m c t)) (ix2 p q) = reconG (arr0 m c) (arr1 m c) (arr2 m c) (arr3 m c) (arr4 m c) (arr5 m c) (arr6 m c) (((cfg0.win 7).blk t).view.emb (ix2 p q))
  rw [pay1_eq, recon_at, blk1_eq, blk2_eq, blk3_eq, blk4_eq, blk5_eq, blk6_eq]
  unfold reconG
  beta_reduce
  rw [show (((cfg0.win 7).blk t).view.emb (ix2 p q)) 1 = q from Fin.ext (out7_emb1 t p q)]
  refine congrArg (fun x => decRow (readRow (attnOf x (encW (arr1 m c)) (encB (arr2 m c)) (memT (arr4 m c))) (memOf (arr3 m c))) (decW (arr5 m c)) (decB (arr6 m c)) q) ?_
  funext d
  exact blk0_at m c t p d _ (out7_emb0 t p q)

/-- An index of the array is in point `t`'s block iff each coordinate is in the block's range on its axis. -/
theorem mem_blk7 (t : Fin cfg0.N) (i : S65536x512.Idx) :
    i ∈ ((cfg0.win 7).blk t).view.set ↔ ∀ a : Fin 2, win0_7.index t a * S2048x512.size a ≤ (i a).val ∧ (i a).val < win0_7.index t a * S2048x512.size a + S2048x512.size a := by
  show i ∈ ((View.whole main_v6_0).slice (win0_7.rect t)).set ↔ _
  rw [View.set_slice_whole, Rect.mem_set_unit]
  exact Iff.rfl

/-- Row `r` lies in the block of point `r / 2048`. -/
theorem cover7 (i : S65536x512.Idx) : ∃ t : Fin cfg0.N, (cfg0.win 7).flush t = true ∧ i ∈ ((cfg0.win 7).blk t).view.set := by
  have hi0 : (i 0).val < 65536 := (i 0).isLt
  have hi1 : (i 1).val < 512 := (i 1).isLt
  have hN : cfg0.N = 32 := N_0
  have ht : (i 0).val / 2048 < cfg0.N := by rw [hN]; omega
  refine ⟨⟨(i 0).val / 2048, ht⟩, flush0_7 _, ?_⟩
  rw [mem_blk7]
  have e0 : win0_7.index ⟨(i 0).val / 2048, ht⟩ (0 : Fin 2) = (i 0).val / 2048 := (idx_facts ⟨(i 0).val / 2048, ht⟩).2.2.2.2.2.2.2.2.2.2.2.2.2.2.1
  have e1 : win0_7.index ⟨(i 0).val / 2048, ht⟩ (1 : Fin 2) = 0 := (idx_facts ⟨(i 0).val / 2048, ht⟩).2.2.2.2.2.2.2.2.2.2.2.2.2.2.2.1
  intro a
  match a with
  | ⟨0, _⟩ => show win0_7.index ⟨(i 0).val / 2048, ht⟩ (0 : Fin 2) * 2048 ≤ (i 0).val ∧ (i 0).val < win0_7.index ⟨(i 0).val / 2048, ht⟩ (0 : Fin 2) * 2048 + 2048; rw [e0]; omega
  | ⟨1, _⟩ => show win0_7.index ⟨(i 0).val / 2048, ht⟩ (1 : Fin 2) * 512 ≤ (i 1).val ∧ (i 1).val < win0_7.index ⟨(i 0).val / 2048, ht⟩ (1 : Fin 2) * 512 + 512; rw [e1]; omega

/-- The array after the launch. -/
theorem final7 (c : Dev nD) : (dats m 0 c).arrAt 7 cfg0.N = reconG (arr0 m c) (arr1 m c) (arr2 m c) (arr3 m c) (arr4 m c) (arr5 m c) (arr6 m c) :=
  (dats m 0 c).arrAt_eq_of_cover 7 (reconG (arr0 m c) (arr1 m c) (arr2 m c) (arr3 m c) (arr4 m c) (arr5 m c) (arr6 m c)) (fun t _ => flushed7_eq m c t) cover7

/-! ## The host operations before the launch -/

theorem arr0_eq (c : Dev nD) :
    arr0 m c = shapeCast S65536x512 (m ((c : Thread nD τ).loc main_arg0)) Gen.shapeCasts_S16x4096x512_S65536x512 := by
  show StableHlo.after hostOps0 (fun b => m (c, b)) (Proc.devRef .tc main_v0) = _
  after_results <;> rfl
theorem arr1_eq (c : Dev nD) :
    arr1 m c = transpose S512x256 [1, 0] (m ((c : Thread nD τ).loc main_arg1)) Gen.transposes_S256x512_S512x256_1_0 := by
  show StableHlo.after hostOps0 (fun b => m (c, b)) (Proc.devRef .tc main_v1) = _
  after_results <;> rfl
theorem arr2_eq (c : Dev nD) :
    arr2 m c = shapeCast S1x256 (m ((c : Thread nD τ).loc main_arg2)) Gen.shapeCasts_S256_S1x256 := by
  show StableHlo.after hostOps0 (fun b => m (c, b)) (Proc.devRef .tc main_v2) = _
  after_results <;> rfl
theorem arr3_eq (c : Dev nD) : arr3 m c = m ((c : Thread nD τ).loc main_arg3) := V_main_arg3 m c
theorem arr4_eq (c : Dev nD) :
    arr4 m c = transpose S256x64 [1, 0] (m ((c : Thread nD τ).loc main_arg3)) Gen.transposes_S64x256_S256x64_1_0 := by
  show StableHlo.after hostOps0 (fun b => m (c, b)) (Proc.devRef .tc main_v3) = _
  after_results <;> rfl
theorem arr5_eq (c : Dev nD) :
    arr5 m c = transpose S256x512 [1, 0] (m ((c : Thread nD τ).loc main_arg4)) Gen.transposes_S512x256_S256x512_1_0 := by
  show StableHlo.after hostOps0 (fun b => m (c, b)) (Proc.devRef .tc main_v4) = _
  after_results <;> rfl
theorem arr6_eq (c : Dev nD) :
    arr6 m c = shapeCast S1x512 (m ((c : Thread nD τ).loc main_arg5)) Gen.shapeCasts_S512_S1x512 := by
  show StableHlo.after hostOps0 (fun b => m (c, b)) (Proc.devRef .tc main_v5) = _
  after_results <;> rfl

/-- Row `4096 b + s` of the flattened sequence is row `(b, s)` of the sequence. -/
theorem arr0_at (c : Dev nD) (b : Fin 16) (s : Fin 4096) (d : Fin 512) (r : Fin 65536) (hr : r.val = b.val * 4096 + s.val) :
    arr0 m c (ix2 r d) = (m ((c : Thread nD τ).loc main_arg0) : S16x4096x512.Idx → EReal) (ix3 b s d) := by
  rw [arr0_eq]
  exact shapeCast_apply (s := S16x4096x512) (t := S65536x512) _ _ _ _ (by
    show (S16x4096x512.rowMajor (ix3 b s d)).val = (S65536x512.rowMajor (ix2 r d)).val
    rw [Shape.rowMajor_val_three, Shape.rowMajor_val_two]
    show (b.val * 4096 + s.val) * 512 + d.val = r.val * 512 + d.val
    rw [hr])

/-- The weights as the row functions read them, in terms of the arguments. -/
theorem encW_arr1 (c : Dev nD) :
    encW (arr1 m c) = fun k d => (m ((c : Thread nD τ).loc main_arg1) : S256x512.Idx → EReal) (ix2 k d) := by
  funext k d
  show arr1 m c (ix2 d k) = _
  rw [arr1_eq]
  exact transpose_ix2_apply _ _ d k
theorem encB_arr2 (c : Dev nD) :
    encB (arr2 m c) = fun k => (m ((c : Thread nD τ).loc main_arg2) : S256.Idx → EReal) (ix1 k) := by
  funext k
  show arr2 m c (ix2 (0 : Fin 1) k) = _
  rw [arr2_eq]
  exact shapeCast_a_1a_apply _ _ 0 k
theorem memOf_arr3 (c : Dev nD) :
    memOf (arr3 m c) = fun j k => (m ((c : Thread nD τ).loc main_arg3) : S64x256.Idx → EReal) (ix2 j k) := by
  funext j k
  show arr3 m c (ix2 j k) = _
  rw [arr3_eq]
theorem memT_arr4 (c : Dev nD) :
    memT (arr4 m c) = fun j k => (m ((c : Thread nD τ).loc main_arg3) : S64x256.Idx → EReal) (ix2 j k) := by
  funext j k
  show arr4 m c (ix2 k j) = _
  rw [arr4_eq]
  exact transpose_ix2_apply _ _ k j
theorem decW_arr5 (c : Dev nD) :
    decW (arr5 m c) = fun d k => (m ((c : Thread nD τ).loc main_arg4) : S512x256.Idx → EReal) (ix2 d k) := by
  funext d k
  show arr5 m c (ix2 k d) = _
  rw [arr5_eq]
  exact transpose_ix2_apply _ _ k d
theorem decB_arr6 (c : Dev nD) :
    decB (arr6 m c) = fun d => (m ((c : Thread nD τ).loc main_arg5) : S512.Idx → EReal) (ix1 d) := by
  funext d
  show arr6 m c (ix2 (0 : Fin 1) d) = _
  rw [arr6_eq]
  exact shapeCast_a_1a_apply _ _ 0 d

/-! ## The host operations after the launch -/

theorem tail7 (c : Dev nD) :
    Pipeline.afterTail₀ cfgs (dats m) 0 (V0 m) [hostOps1] c main_v7
      = shapeCast S16x4096x512 (reconG (arr0 m c) (arr1 m c) (arr2 m c) (arr3 m c) (arr4 m c) (arr5 m c) (arr6 m c)) Gen.shapeCasts_S65536x512_S16x4096x512 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6_0)
      = reconG (arr0 m c) (arr1 m c) (arr2 m c) (arr3 m c) (arr4 m c) (arr5 m c) (arr6 m c) :=
    (Pipeline.withArrays_arr spec0 launch0.win.arr_inj c _ _ 7).trans (final7 m c)
  rw [e]
  rfl

theorem tail8 (c : Dev nD) :
    Pipeline.afterTail₀ cfgs (dats m) 0 (V0 m) [hostOps1] c main_v8
      = shapeCast S16x4096x64 (attnG (arr0 m c) (arr1 m c) (arr2 m c) (arr4 m c)) Gen.shapeCasts_S65536x64_S16x4096x64 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v6_1)
      = attnG (arr0 m c) (arr1 m c) (arr2 m c) (arr4 m c) :=
    (Pipeline.withArrays_arr spec0 launch0.win.arr_inj c _ _ 8).trans (final8 m c)
  rw [e]
  rfl

theorem tail9 (c : Dev nD) :
    Pipeline.afterTail₀ cfgs (dats m) 0 (V0 m) [hostOps1] c main_v9
      = shapeCast S16x4096x256 (readG (arr0 m c) (arr1 m c) (arr2 m c) (arr3 m c) (arr4 m c)) Gen.shapeCasts_S65536x256_S16x4096x256 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v6_2)
      = readG (arr0 m c) (arr1 m c) (arr2 m c) (arr3 m c) (arr4 m c) :=
    (Pipeline.withArrays_arr spec0 launch0.win.arr_inj c _ _ 9).trans (final9 m c)
  rw [e]
  rfl

end Cert.KernelIdeal.Arrays

end
-- ==== Proof.SpecArr.lean ====
/-
  The three results as functions of the six argument arrays, index by index: at `(b, s, ·)` the row functions of
  `Spec` applied to row `(b, s)` of the sequence and to the weights as given.
-/
import proofs.«169983_j23175643529264_1_alg».proof.Proof.Spec
import Idealize.ShloMosaic.Lib.ValueIdx

noncomputable section

namespace Cert.Spec

open Idealize.ShloMosaic Idealize.ShloMosaic.ValueIdx

/-- The softmax weights, [16, 4096, 64]. -/
def attnArr (x0 : (⟨3, ![16, 4096, 512]⟩ : Shape).Idx → EReal) (x1 : (⟨2, ![256, 512]⟩ : Shape).Idx → EReal)
    (x2 : (⟨1, ![256]⟩ : Shape).Idx → EReal) (x3 : (⟨2, ![64, 256]⟩ : Shape).Idx → EReal) :
    (⟨3, ![16, 4096, 64]⟩ : Shape).Idx → EReal :=
  fun i => attnOf (fun d => x0 (ix3 (i 0) (i 1) d)) (fun k d => x1 (ix2 k d)) (fun k => x2 (ix1 k)) (fun j k => x3 (ix2 j k)) (i 2)

/-- The memory read, [16, 4096, 256]. -/
def readArr (x0 : (⟨3, ![16, 4096, 512]⟩ : Shape).Idx → EReal) (x1 : (⟨2, ![256, 512]⟩ : Shape).Idx → EReal)
    (x2 : (⟨1, ![256]⟩ : Shape).Idx → EReal) (x3 : (⟨2, ![64, 256]⟩ : Shape).Idx → EReal) :
    (⟨3, ![16, 4096, 256]⟩ : Shape).Idx → EReal :=
  fun i => readOf (fun d => x0 (ix3 (i 0) (i 1) d)) (fun k d => x1 (ix2 k d)) (fun k => x2 (ix1 k)) (fun j k => x3 (ix2 j k)) (i 2)

/-- The reconstruction, [16, 4096, 512]. -/
def reconArr (x0 : (⟨3, ![16, 4096, 512]⟩ : Shape).Idx → EReal) (x1 : (⟨2, ![256, 512]⟩ : Shape).Idx → EReal)
    (x2 : (⟨1, ![256]⟩ : Shape).Idx → EReal) (x3 : (⟨2, ![64, 256]⟩ : Shape).Idx → EReal)
    (x4 : (⟨2, ![512, 256]⟩ : Shape).Idx → EReal) (x5 : (⟨1, ![512]⟩ : Shape).Idx → EReal) :
    (⟨3, ![16, 4096, 512]⟩ : Shape).Idx → EReal :=
  fun i => reconOf (fun d => x0 (ix3 (i 0) (i 1) d)) (fun k d => x1 (ix2 k d)) (fun k => x2 (ix1 k)) (fun j k => x3 (ix2 j k))
    (fun d k => x4 (ix2 d k)) (fun d => x5 (ix1 d)) (i 2)

end Cert.Spec

end
-- ==== Proof.KernelValue.lean ====
/-
  The kernel's three results as the functions of `SpecArr` of its arguments, and its run re-posted with them.

  Each result the program returns is the launch's result array with its rows split back into `(b, s)`; row `4096 b + s`
  of the flattened sequence is row `(b, s)` of the sequence; the transposed weights read at `(d, k)` are the weights at
  `(k, d)`, and a bias stood up as a row reads at `(0, k)` the bias at `k`. So at `(b, s, ·)` each result is the row
  function of row `(b, s)` and the weights as given.
-/
import proofs.«169983_j23175643529264_1_alg».proof.Proof.Arrays
import proofs.«169983_j23175643529264_1_alg».proof.Proof.SpecArr

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Body Cert.Spec

variable (m : (ℓ : Loc nD τ sig) → Buf (Elt Ideal) ℓ) (ρ : Dev nD → PrngReg)

/-- The flattened row of `(b, s)`. -/
def rowIx (b : Fin 16) (s : Fin 4096) : Fin 65536 := ⟨b.val * 4096 + s.val, by omega⟩

theorem result8 (c : Dev nD) :
    Pipeline.afterTail₀ cfgs (dats m) 0 (V0 m) [hostOps1] c main_v8 = attnArr (m ((c.tc : Thread nD τ).loc main_arg0)) (m ((c.tc : Thread nD τ).loc main_arg1)) (m ((c.tc : Thread nD τ).loc main_arg2)) (m ((c.tc : Thread nD τ).loc main_arg3)) := by
  rw [tail8]
  funext i
  obtain ⟨b, s, q, rfl⟩ : ∃ (b : Fin 16) (s : Fin 4096) (q : Fin 64), i = ix3 b s q := ⟨i 0, i 1, i 2, eq_ix3 i⟩
  refine (shapeCast_apply (s := S65536x64) (t := S16x4096x64) _ _ (ix3 b s q) (ix2 (rowIx b s) q) (by
    show (S65536x64.rowMajor (ix2 (rowIx b s) q)).val = (S16x4096x64.rowMajor (ix3 b s q)).val
    rw [Shape.rowMajor_val_two, Shape.rowMajor_val_three]
    rfl)).trans ?_
  unfold attnG attnArr
  beta_reduce
  rw [encW_arr1, encB_arr2, memT_arr4]
  refine congrArg (fun x => attnOf x _ _ _ q) ?_
  funext d
  exact arr0_at m c b s d (rowIx b s) rfl

theorem result9 (c : Dev nD) :
    Pipeline.afterTail₀ cfgs (dats m) 0 (V0 m) [hostOps1] c main_v9 = readArr (m ((c.tc : Thread nD τ).loc main_arg0)) (m ((c.tc : Thread nD τ).loc main_arg1)) (m ((c.tc : Thread nD τ).loc main_arg2)) (m ((c.tc : Thread nD τ).loc main_arg3)) := by
  rw [tail9]
  funext i
  obtain ⟨b, s, q, rfl⟩ : ∃ (b : Fin 16) (s : Fin 4096) (q : Fin 256), i = ix3 b s q := ⟨i 0, i 1, i 2, eq_ix3 i⟩
  refine (shapeCast_apply (s := S65536x256) (t := S16x4096x256) _ _ (ix3 b s q) (ix2 (rowIx b s) q) (by
    show (S65536x256.rowMajor (ix2 (rowIx b s) q)).val = (S16x4096x256.rowMajor (ix3 b s q)).val
    rw [Shape.rowMajor_val_two, Shape.rowMajor_val_three]
    rfl)).trans ?_
  unfold readG readArr
  beta_reduce
  rw [encW_arr1, encB_arr2, memT_arr4, memOf_arr3]
  refine congrArg (fun x => readRow (attnOf x _ _ _) _ q) ?_
  funext d
  exact arr0_at m c b s d (rowIx b s) rfl

theorem result7 (c : Dev nD) :
    Pipeline.afterTail₀ cfgs (dats m) 0 (V0 m) [hostOps1] c main_v7 = reconArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [tail7]
  funext i
  obtain ⟨b, s, q, rfl⟩ : ∃ (b : Fin 16) (s : Fin 4096) (q : Fin 512), i = ix3 b s q := ⟨i 0, i 1, i 2, eq_ix3 i⟩
  refine (shapeCast_apply (s := S65536x512) (t := S16x4096x512) _ _ (ix3 b s q) (ix2 (rowIx b s) q) (by
    show (S65536x512.rowMajor (ix2 (rowIx b s) q)).val = (S16x4096x512.rowMajor (ix3 b s q)).val
    rw [Shape.rowMajor_val_two, Shape.rowMajor_val_three]
    rfl)).trans ?_
  unfold reconG reconArr
  beta_reduce
  rw [encW_arr1, encB_arr2, memT_arr4, memOf_arr3, decW_arr5, decB_arr6]
  refine congrArg (fun x => decRow (readRow (attnOf x _ _ _) _) _ _ q) ?_
  funext d
  exact arr0_at m c b s d (rowIx b s) rfl

/-- The kernel's run: each result at its function of the arguments, the arguments unchanged. -/
theorem run : θ_run defs (onTc (τ := τ) (main (F := Ideal))) ⟨m, fun _ => 0, ρ⟩ fun r => ∀ c : Dev nD,
      r.2.mem ((c.tc : Thread nD τ).loc main_v7) = reconArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v8) = attnArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v9) = readArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v7 (Pipeline.mem_restRefs_of main_v7 (by decide) (by decide))).trans (result7 m c),
        ((h c).2 main_v8 (Pipeline.mem_restRefs_of main_v8 (by decide) (by decide))).trans (result8 m c),
        ((h c).2 main_v9 (Pipeline.mem_restRefs_of main_v9 (by decide) (by decide))).trans (result9 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).1 3).trans (((dats m 0 c).arrAt_in 3 rfl _).trans ((A_eq m c 3).trans (V_main_arg3 m c))),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c)⟩)
    (run_main m ρ)

end Cert.KernelIdeal.Arrays

end
-- ==== Proof.RefRows.lean ====
/-
  The reference at one row.

  The reference computes the same five stages on the whole [16, 4096, ·] arrays with einsums and a softmax along the
  last axis. Read at an index `(b, s, ·)`, each of its stages depends on row `(b, s)` of the sequence and on the weight
  arrays only, and is the row function of `Spec` of that row: a contraction is a sum over the contracted coordinate,
  the bias is read through its two broadcasts, the scale is the square root of 256, the largest lane is a fold of
  `max` over the last axis, the normaliser is zero plus the sum over it.
-/
import proofs.«169983_j23175643529264_1_alg».proof.Proof.Gen.ReferenceIdeal.Read
import proofs.«169983_j23175643529264_1_alg».proof.Proof.Spec

noncomputable section

namespace Cert.ReferenceIdeal.Rows

open Cert.ReferenceIdeal Cert.ReferenceIdeal.Gen Cert.ReferenceIdeal.Read Idealize.ShloMosaic Idealize.ShloMosaic.ValueIdx Cert.Spec

variable (x0 : (⟨S16x4096x512, .f32⟩ : BufTy).Contents (Elt Ideal)) (x1 : (⟨S256x512, .f32⟩ : BufTy).Contents (Elt Ideal))
  (x2 : (⟨S256, .f32⟩ : BufTy).Contents (Elt Ideal)) (x3 : (⟨S64x256, .f32⟩ : BufTy).Contents (Elt Ideal))
  (x4 : (⟨S512x256, .f32⟩ : BufTy).Contents (Elt Ideal)) (x5 : (⟨S512, .f32⟩ : BufTy).Contents (Elt Ideal))

/-- Row `(b, s)` of the sequence, and the weights as the row functions take them. -/
abbrev seqRow (b : Fin 16) (s : Fin 4096) : Fin 512 → EReal := fun d => x0 (ix3 b s d)
abbrev encW : Fin 256 → Fin 512 → EReal := fun k d => x1 (ix2 k d)
abbrev encB : Fin 256 → EReal := fun k => x2 (ix1 k)
abbrev memOf : Fin 64 → Fin 256 → EReal := fun j k => x3 (ix2 j k)
abbrev decW : Fin 512 → Fin 256 → EReal := fun d k => x4 (ix2 d k)
abbrev decB : Fin 512 → EReal := fun d => x5 (ix1 d)

/-! ## The operand indices of each stage at `(b, s, ·)` -/

theorem lidx0 (b : Fin 16) (s : Fin 4096) (k : Fin 256) (d : Fin 512) : lidx_main_v0 (ix3 b s k) d = ix3 b s d :=
  funext fun a => by match a with | ⟨0, _⟩ => rfl | ⟨1, _⟩ => rfl | ⟨2, _⟩ => rfl
theorem ridx0 (b : Fin 16) (s : Fin 4096) (k : Fin 256) (d : Fin 512) : ridx_main_v0 (ix3 b s k) d = ix2 k d :=
  funext fun a => by match a with | ⟨0, _⟩ => rfl | ⟨1, _⟩ => rfl
theorem bidx (b : Fin 16) (s : Fin 4096) (k : Fin 256) : idx_main_v1 (idx_main_v2 (ix3 b s k)) = ix1 k :=
  funext fun a => by match a with | ⟨0, _⟩ => rfl
theorem lidx6 (b : Fin 16) (s : Fin 4096) (j : Fin 64) (k : Fin 256) : lidx_main_v6 (ix3 b s j) k = ix3 b s k :=
  funext fun a => by match a with | ⟨0, _⟩ => rfl | ⟨1, _⟩ => rfl | ⟨2, _⟩ => rfl
theorem ridx6 (b : Fin 16) (s : Fin 4096) (j : Fin 64) (k : Fin 256) : ridx_main_v6 (ix3 b s j) k = ix2 j k :=
  funext fun a => by match a with | ⟨0, _⟩ => rfl | ⟨1, _⟩ => rfl
theorem midx (b : Fin 16) (s : Fin 4096) (j : Fin 64) : idx_main_v12 (idx_main_v13 (ix3 b s j)) = ix2 b s :=
  funext fun a => by match a with | ⟨0, _⟩ => rfl | ⟨1, _⟩ => rfl
theorem sidx (b : Fin 16) (s : Fin 4096) (j j' : Fin 64) :
    idx_main_v16 (idx_main_v17 (idx_main_v18 (ix3 b s j))) j' = ix3 b s j' :=
  funext fun a => by match a with | ⟨0, _⟩ => rfl | ⟨1, _⟩ => rfl | ⟨2, _⟩ => rfl
theorem lidx20 (b : Fin 16) (s : Fin 4096) (k : Fin 256) (j : Fin 64) : lidx_main_v20 (ix3 b s k) j = ix3 b s j :=
  funext fun a => by match a with | ⟨0, _⟩ => rfl | ⟨1, _⟩ => rfl | ⟨2, _⟩ => rfl
theorem ridx20 (b : Fin 16) (s : Fin 4096) (k : Fin 256) (j : Fin 64) : ridx_main_v20 (ix3 b s k) j = ix2 j k :=
  funext fun a => by match a with | ⟨0, _⟩ => rfl | ⟨1, _⟩ => rfl
theorem lidx21 (b : Fin 16) (s : Fin 4096) (d : Fin 512) (k : Fin 256) : lidx_main_v21 (ix3 b s d) k = ix3 b s k :=
  funext fun a => by match a with | ⟨0, _⟩ => rfl | ⟨1, _⟩ => rfl | ⟨2, _⟩ => rfl
theorem ridx21 (b : Fin 16) (s : Fin 4096) (d : Fin 512) (k : Fin 256) : ridx_main_v21 (ix3 b s d) k = ix2 d k :=
  funext fun a => by match a with | ⟨0, _⟩ => rfl | ⟨1, _⟩ => rfl
theorem cidx (b : Fin 16) (s : Fin 4096) (d : Fin 512) : idx_main_v22 (idx_main_v23 (ix3 b s d)) = ix1 d :=
  funext fun a => by match a with | ⟨0, _⟩ => rfl

/-! ## The stages -/

theorem enc_at (b : Fin 16) (s : Fin 4096) (k : Fin 256) :
    val_main_v4 (F := Ideal) x0 x1 x2 (ix3 b s k) = encRow (seqRow x0 b s) (encW x1) (encB x2) k := by
  rw [val_main_v4_apply, val_main_v3_apply, val_main_v0_apply, val_main_v2_apply, val_main_v1_apply, bidx]
  unfold encRow
  show Ideal.tanh ((∑ d : Fin 512, x0 (lidx_main_v0 (ix3 b s k) d) * x1 (ridx_main_v0 (ix3 b s k) d)) + x2 (ix1 k)) = _
  refine congrArg (fun t => Ideal.tanh (t + x2 (ix1 k))) (Finset.sum_congr rfl fun d _ => ?_)
  rw [lidx0, ridx0]

theorem logit_at (b : Fin 16) (s : Fin 4096) (j : Fin 64) :
    val_main_v8 (F := Ideal) x0 x1 x2 x3 (ix3 b s j)
      = logitRow (encRow (seqRow x0 b s) (encW x1) (encB x2)) (memOf x3) j := by
  rw [val_main_v8_apply, val_main_v6_apply, val_main_v7_apply, val_main_v5_apply, val_main_cst_apply]
  unfold logitRow
  show Ideal.div (∑ k : Fin 256, val_main_v4 (F := Ideal) x0 x1 x2 (lidx_main_v6 (ix3 b s j) k) * x3 (ridx_main_v6 (ix3 b s j) k))
      (Ideal.sqrt (Ideal.ofBits .f32 0x43800000#32)) = _
  rw [sqrt_256]
  refine congrArg (fun t => Ideal.div t _) (Finset.sum_congr rfl fun k _ => ?_)
  rw [lidx6, ridx6, enc_at]

theorem max_at (b : Fin 16) (s : Fin 4096) :
    val_main_v11 (F := Ideal) x0 x1 x2 x3 (ix2 b s)
      = rowMax (logitRow (encRow (seqRow x0 b s) (encW x1) (encB x2)) (memOf x3)) := by
  have hR : S16x4096x64.Reduces [2] S16x4096 := by decide
  rw [val_main_v11_apply, val_main_v10_apply, val_main_cst_1_apply]
  unfold val_main_v9 rowMax
  refine congrArg (fun t => max (Ideal.ofBits .f32 0xFF800000#32) t) ?_
  refine (Host.reduce_eq_fold_single (FloatOps.maximumf (F := Ideal) (φ := .f32)) (val_main_v8 (F := Ideal) x0 x1 x2 x3)
    (val_main_cst_0 (F := Ideal)) reducesTo_S16x4096x64_S16x4096_d2 hR h_S_ (ix2 b s)).trans ?_
  show (Finset.univ : Finset (Fin 64)).fold max (Ideal.ofBits .f32 0xFF800000#32)
      (val_main_v8 (F := Ideal) x0 x1 x2 x3 ∘ hR.lift (ix2 b s)) = _
  refine congrArg (fun f => (Finset.univ : Finset (Fin 64)).fold max (Ideal.ofBits .f32 0xFF800000#32) f) ?_
  funext j
  show val_main_v8 (F := Ideal) x0 x1 x2 x3 (hR.lift (ix2 b s) j) = _
  rw [show hR.lift (ix2 b s) j = ix3 b s j from
    funext fun a => Fin.ext (by match a with | ⟨0, _⟩ => rfl | ⟨1, _⟩ => rfl | ⟨2, _⟩ => rfl)]
  exact logit_at x0 x1 x2 x3 b s j

theorem exp_at (b : Fin 16) (s : Fin 4096) (j : Fin 64) :
    val_main_v15 (F := Ideal) x0 x1 x2 x3 (ix3 b s j)
      = expRow (logitRow (encRow (seqRow x0 b s) (encW x1) (encB x2)) (memOf x3)) j := by
  rw [val_main_v15_apply, val_main_v14_apply, val_main_v13_apply, val_main_v12_apply, midx, logit_at, max_at]
  rfl

theorem attn_at (b : Fin 16) (s : Fin 4096) (j : Fin 64) :
    val_main_v19 (F := Ideal) x0 x1 x2 x3 (ix3 b s j) = attnOf (seqRow x0 b s) (encW x1) (encB x2) (memOf x3) j := by
  rw [val_main_v19_apply, val_main_v18_apply, val_main_v17_apply, val_main_v16_apply, val_main_cst_2_apply, exp_at]
  unfold attnOf attnRow
  show Ideal.div _ (Ideal.ofBits .f32 0x00000000#32 + _) = _
  rw [Ideal.ofBits_zero_f32, zero_add]
  refine congrArg (fun t => Ideal.div _ t) (Finset.sum_congr rfl fun j' _ => ?_)
  rw [sidx, exp_at]

theorem read_at (b : Fin 16) (s : Fin 4096) (k : Fin 256) :
    val_main_v20 (F := Ideal) x0 x1 x2 x3 (ix3 b s k) = readOf (seqRow x0 b s) (encW x1) (encB x2) (memOf x3) k := by
  rw [val_main_v20_apply]
  unfold readOf readRow
  refine Finset.sum_congr rfl fun j _ => ?_
  rw [lidx20, ridx20, attn_at]

theorem recon_at (b : Fin 16) (s : Fin 4096) (d : Fin 512) :
    val_main_v24 (F := Ideal) x0 x1 x2 x3 x4 x5 (ix3 b s d)
      = reconOf (seqRow x0 b s) (encW x1) (encB x2) (memOf x3) (decW x4) (decB x5) d := by
  rw [val_main_v24_apply, val_main_v21_apply, val_main_v23_apply, val_main_v22_apply, cidx]
  unfold reconOf decRow
  show (∑ k : Fin 256, val_main_v20 (F := Ideal) x0 x1 x2 x3 (lidx_main_v21 (ix3 b s d) k) * x4 (ridx_main_v21 (ix3 b s d) k)) + x5 (ix1 d) = _
  refine congrArg (fun t => t + x5 (ix1 d)) (Finset.sum_congr rfl fun k _ => ?_)
  rw [lidx21, ridx21, read_at]

end Cert.ReferenceIdeal.Rows

end
-- ==== Proof.RefValue.lean ====
/-
  The reference's three results are the functions of `SpecArr` of its arguments: every index is some `(b, s, ·)`,
  where the stage lemmas of the row module apply; and its run, re-posted with those functions.
-/
import proofs.«169983_j23175643529264_1_alg».proof.Proof.RefRows
import proofs.«169983_j23175643529264_1_alg».proof.Proof.SpecArr

noncomputable section

namespace Cert.ReferenceIdeal.Rows

open Cert.ReferenceIdeal Cert.ReferenceIdeal.Gen Cert.ReferenceIdeal.Read Idealize.ShloMosaic Idealize.ShloMosaic.TcCoe Idealize.SL.Sem
open Idealize.ShloMosaic.ValueIdx Cert.Spec

variable (x0 : (⟨S16x4096x512, .f32⟩ : BufTy).Contents (Elt Ideal)) (x1 : (⟨S256x512, .f32⟩ : BufTy).Contents (Elt Ideal))
  (x2 : (⟨S256, .f32⟩ : BufTy).Contents (Elt Ideal)) (x3 : (⟨S64x256, .f32⟩ : BufTy).Contents (Elt Ideal))
  (x4 : (⟨S512x256, .f32⟩ : BufTy).Contents (Elt Ideal)) (x5 : (⟨S512, .f32⟩ : BufTy).Contents (Elt Ideal))

theorem attn_eq : val_main_v19 (F := Ideal) x0 x1 x2 x3 = attnArr x0 x1 x2 x3 := by
  funext i
  obtain ⟨b, s, j, rfl⟩ : ∃ (b : Fin 16) (s : Fin 4096) (j : Fin 64), i = ix3 b s j := ⟨i 0, i 1, i 2, eq_ix3 i⟩
  exact attn_at x0 x1 x2 x3 b s j

theorem read_eq : val_main_v20 (F := Ideal) x0 x1 x2 x3 = readArr x0 x1 x2 x3 := by
  funext i
  obtain ⟨b, s, k, rfl⟩ : ∃ (b : Fin 16) (s : Fin 4096) (k : Fin 256), i = ix3 b s k := ⟨i 0, i 1, i 2, eq_ix3 i⟩
  exact read_at x0 x1 x2 x3 b s k

theorem recon_eq : val_main_v24 (F := Ideal) x0 x1 x2 x3 x4 x5 = reconArr x0 x1 x2 x3 x4 x5 := by
  funext i
  obtain ⟨b, s, d, rfl⟩ : ∃ (b : Fin 16) (s : Fin 4096) (d : Fin 512), i = ix3 b s d := ⟨i 0, i 1, i 2, eq_ix3 i⟩
  exact recon_at x0 x1 x2 x3 x4 x5 b s d

/-- The reference's run: each result at its function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
          = reconArr (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_v19)
          = attnArr (m ((c.tc : Thread nD τ).loc main_arg0)) (m ((c.tc : Thread nD τ).loc main_arg1)) (m ((c.tc : Thread nD τ).loc main_arg2))
              (m ((c.tc : Thread nD τ).loc main_arg3))
      ∧ r.2.mem ((c.tc : Thread nD τ).loc main_v20)
          = readArr (m ((c.tc : Thread nD τ).loc main_arg0)) (m ((c.tc : Thread nD τ).loc main_arg1)) (m ((c.tc : Thread nD τ).loc main_arg2))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans ((val_main_v24_eq _ _ _ _ _ _).trans (recon_eq _ _ _ _ _ _)),
        (h c).2.1.trans ((val_main_v19_eq _ _ _ _).trans (attn_eq _ _ _ _)),
        (h c).2.2.1.trans ((val_main_v20_eq _ _ _ _).trans (read_eq _ _ _ _)),
        (h c).2.2.2⟩)
    (Cert.ReferenceIdeal.Value.run (F := Ideal) m ρ)

end Cert.ReferenceIdeal.Rows

end
-- ==== Proof.lean ====
/-
  The kernel and the reference compute, for every row of a [16, 4096, 512] sequence, an encoding
  `tanh (x Wᵀ + b)`, its softmax comparison with 64 memory rows scaled by 1/16, the memory read with those weights, and
  the read decoded `r Dᵀ + c`. The kernel does it 2048 flattened rows at a time, with the weights transposed beforehand
  and the scale the literal sixteen; the reference on the whole arrays by einsums, its scale the square root of 256. On
  the extended reals the two are the same function of the arguments index by index: every matrix product is the same sum
  over the contracted coordinate, the two largest-lane folds start from the same pattern, and √256 = 16. No law that
  fails at the infinities is used, so the precondition is never opened.

  The frames of the two kernel programs are the generated ones; the reference's is its run with the results dropped; the
  ideal pass rewrote nothing, so its conjunct is `True`; the algebraic conjunct puts the two runs side by side, each
  posted at the same three functions of the arguments.
-/
import proofs.«169983_j23175643529264_1_alg».proof.Defs
import proofs.«169983_j23175643529264_1_alg».proof.Proof.Gen.Kernel
import proofs.«169983_j23175643529264_1_alg».proof.Proof.Gen.Kernel.Skeleton
import proofs.«169983_j23175643529264_1_alg».proof.Proof.Gen.Kernel.Launch
import proofs.«169983_j23175643529264_1_alg».proof.Proof.Gen.Kernel.Points
import proofs.«169983_j23175643529264_1_alg».proof.Proof.Gen.Kernel.Frame
import proofs.«169983_j23175643529264_1_alg».proof.Proof.Gen.KernelIdeal
import proofs.«169983_j23175643529264_1_alg».proof.Proof.Gen.KernelIdeal.Skeleton
import proofs.«169983_j23175643529264_1_alg».proof.Proof.Gen.KernelIdeal.Launch
import proofs.«169983_j23175643529264_1_alg».proof.Proof.Gen.KernelIdeal.Points
import proofs.«169983_j23175643529264_1_alg».proof.Proof.Gen.KernelIdeal.Frame
import proofs.«169983_j23175643529264_1_alg».proof.Proof.Gen.ReferenceIdeal
import proofs.«169983_j23175643529264_1_alg».proof.Proof.Gen.ReferenceIdeal.Read
import proofs.«169983_j23175643529264_1_alg».proof.Proof.Gen.Pre_finite_inputs
import proofs.«169983_j23175643529264_1_alg».proof.Proof.KernelValue
import proofs.«169983_j23175643529264_1_alg».proof.Proof.RefValue
import Idealize.ShloMosaic.Adequacy
import Idealize.ShloMosaic.Init

noncomputable section

namespace Cert.Proof

open Idealize.ShloMosaic Idealize.SL.Sem Cert.Spec

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => (h c).2.2.2) (Cert.ReferenceIdeal.Rows.run m ρ)

/-- Both programs end with each result at the same function of arguments that agree. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (Cert.ReferenceIdeal.Rows.run m' ρ')
  obtain ⟨a0, a1, a2, a3, a4, a5⟩ := hagree c
  refine ⟨(h c).1.trans ?_, (h c).2.1.trans ?_, (h c).2.2.1.trans ?_, (h c).2.2.2⟩
  · rw [a0, a1, a2, a3, a4, a5]
  · rw [a0, a1, a2, a3]
  · rw [a0, a1, a2, a3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
